-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S20000x128 : Shape := ⟨2, ![20000, 128]⟩
abbrev S2000000 : Shape := ⟨1, ![2000000]⟩
abbrev S128x128 : Shape := ⟨2, ![128, 128]⟩
abbrev S128 : Shape := ⟨1, ![128]⟩
abbrev S128x256 : Shape := ⟨2, ![128, 256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128 .f32) (main_arg14 : FVec F S128 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_v48 main_v49 main_v50

def fn_part1 {F : FTy → Type} [FloatOps F] (main_arg6 : FVec F S128x256 .f32) (main_arg7 : FVec F S128 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg6
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000x128 .f32) (main_arg1 : FVec F S20000x128 .f32) (main_arg2 : IVec S2000000 32) (main_arg3 : IVec S2000000 32) (main_arg4 : FVec F S128x128 .f32) (main_arg5 : FVec F S128 .f32) (main_arg6 : FVec F S128x256 .f32) (main_arg7 : FVec F S128 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000x128 : Shape := ⟨2, ![100000, 128]⟩
abbrev S20000x128 : Shape := ⟨2, ![20000, 128]⟩
abbrev S2000000 : Shape := ⟨1, ![2000000]⟩
abbrev S128x128 : Shape := ⟨2, ![128, 128]⟩
abbrev S128 : Shape := ⟨1, ![128]⟩
abbrev S128x256 : Shape := ⟨2, ![128, 256]⟩
abbrev S1x128 : Shape := ⟨2, ![1, 128]⟩
abbrev S5000x128 : Shape := ⟨2, ![5000, 128]⟩
abbrev S_ : Shape := ⟨0, ![]⟩
abbrev S2000000x1 : Shape := ⟨2, ![2000000, 1]⟩
abbrev S2000000x128 : Shape := ⟨2, ![2000000, 128]⟩

abbrev nBuf : Space → Nat
  | .hbm => 61
  | .vmem => 35
  | .smem => 0
  | _ => 0

abbrev bufTy : (tb : Table) → Fin (tcTables nBuf tb) → BufTy
  | .hbm, ⟨0, _⟩ => ⟨S100000x128, .f32⟩
  | .hbm, ⟨1, _⟩ => ⟨S20000x128, .f32⟩
  | .hbm, ⟨2, _⟩ => ⟨S2000000, .i32⟩
  | .hbm, ⟨3, _⟩ => ⟨S2000000, .i32⟩
  | .hbm, ⟨4, _⟩ => ⟨S128x128, .f32⟩
  | .hbm, ⟨5, _⟩ => ⟨S128, .f32⟩
  | .hbm, ⟨6, _⟩ => ⟨S128x256, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128x128, .f32⟩
  | .hbm, ⟨17, _⟩ => ⟨S1x128, .f32⟩
  | .hbm, ⟨18, _⟩ => ⟨S100000x128, .f32⟩
  | .hbm, ⟨19, _⟩ => ⟨S_, .i32⟩
  | .hbm, ⟨20, _⟩ => ⟨S2000000, .i32⟩
  | .hbm, ⟨21, _⟩ => ⟨S2000000, .i1⟩
  | .hbm, ⟨22, _⟩ => ⟨S_, .i32⟩
  | .hbm, ⟨23, _⟩ => ⟨S2000000, .i32⟩
  | .hbm, ⟨24, _⟩ => ⟨S2000000, .i32⟩
  | .hbm, ⟨25, _⟩ => ⟨S2000000, .i32⟩
  | .hbm, ⟨26, _⟩ => ⟨S2000000x1, .i32⟩
  | .hbm, ⟨27, _⟩ => ⟨S2000000x128, .f32⟩
  | .hbm, ⟨28, _⟩ => ⟨S_, .f32⟩
  | .hbm, ⟨29, _⟩ => ⟨S20000x128, .f32⟩
  | .hbm, ⟨30, _⟩ => ⟨S2000000x1, .i32⟩
  | .hbm, ⟨31, _⟩ => ⟨S20000x128, .f32⟩
  | .hbm, ⟨32, _⟩ => ⟨S128x128, .f32⟩
  | .hbm, ⟨33, _⟩ => ⟨S128x128, .f32⟩
  | .hbm, ⟨34, _⟩ => ⟨S128x128, .f32⟩
  | .hbm, ⟨35, _⟩ => ⟨S128x128, .f32⟩
  | .hbm, ⟨36, _⟩ => ⟨S1x128, .f32⟩
  | .hbm, ⟨37, _⟩ => ⟨S20000x128, .f32⟩
  | .hbm, ⟨38, _⟩ => ⟨S_, .i32⟩
  | .hbm, ⟨39, _⟩ => ⟨S2000000, .i32⟩
  | .hbm, ⟨40, _⟩ => ⟨S2000000, .i1⟩
  | .hbm, ⟨41, _⟩ => ⟨S_, .i32⟩
  | .hbm, ⟨42, _⟩ => ⟨S2000000, .i32⟩
  | .hbm, ⟨43, _⟩ => ⟨S2000000, .i32⟩
  | .hbm, ⟨44, _⟩ => ⟨S2000000, .i32⟩
  | .hbm, ⟨45, _⟩ => ⟨S2000000x1, .i32⟩
  | .hbm, ⟨46, _⟩ => ⟨S2000000x128, .f32⟩
  | .hbm, ⟨47, _⟩ => ⟨S_, .f32⟩
  | .hbm, ⟨48, _⟩ => ⟨S100000x128, .f32⟩
  | .hbm, ⟨49, _⟩ => ⟨S2000000x1, .i32⟩
  | .hbm, ⟨50, _⟩ => ⟨S100000x128, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S100000x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S20000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S5000x128, .f32⟩
  | .local _ .vmem, ⟨34, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_c : Ref sig .tc := ⟨.hbm, 19, rfl⟩
abbrev main_v3 : Ref sig .tc := ⟨.hbm, 20, rfl⟩
abbrev main_v4 : Ref sig .tc := ⟨.hbm, 21, rfl⟩
abbrev main_c_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_1 : Ref sig .tc := ⟨.hbm, 38, rfl⟩
abbrev main_v19 : Ref sig .tc := ⟨.hbm, 39, rfl⟩
abbrev main_v20 : Ref sig .tc := ⟨.hbm, 40, rfl⟩
abbrev main_c_2 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg6_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg6_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem6_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem6_1 : DmaSem sig := 34

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S20000x128 : S_.BroadcastsInDim S20000x128 (![] : Fin 0 → Fin S20000x128.rank)
  slices_S128x256_S128x128_0_0 : S128x256.Slices ![0, 0] S128x128
  slices_S128x256_S128x128_0_128 : S128x256.Slices ![0, 128] S128x128
  shapeCasts_S5000x128_S5000x128 : S5000x128.ShapeCasts S5000x128
  bcast_S_S100000x128 : S_.BroadcastsInDim S100000x128 (![] : Fin 0 → Fin S100000x128.rank)
  dot_S5000x128_S128x128_S5000x128_1_0_0_1_n_n_wf : DotDims.WF S5000x128 S128x128 S5000x128 [1] [0] [0] [1] [] []
  gather_S100000x128_S2000000x1_S2000000x128_1_0_n_n_0_1_1128_wf : GatherDims.WF S100000x128 S2000000x1 S2000000x128 [1] [0] [] [0] [] 1 ![1, 128]
  scatter_S20000x128_S2000000x1_S2000000x128_1_0_0_1_wf : ScatterDims.WF S20000x128 S2000000x1 S2000000x128 [1] [0] [0] 1
  gather_S20000x128_S2000000x1_S2000000x128_1_0_n_n_0_1_1128_wf : GatherDims.WF S20000x128 S2000000x1 S2000000x128 [1] [0] [] [0] [] 1 ![1, 128]
  scatter_S100000x128_S2000000x1_S2000000x128_1_0_0_1_wf : ScatterDims.WF S100000x128 S2000000x1 S2000000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S20000x128.size a
  hwx1_0 : ∀ i : grid1.Coords, EltTy.bits .f32 = 32 ∨ (Rect.block (s := S20000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S20000x128.size a
  hwx1_1 : ∀ i : grid1.Coords, EltTy.bits .f32 = 32 ∨ (Rect.block (s := S20000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S20000x128.size a
  hwx1_5 : ∀ i : grid1.Coords, EltTy.bits .f32 = 32 ∨ (Rect.block (s := S20000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S20000x128.size a
  hwx3_0 : ∀ i : grid3.Coords, EltTy.bits .f32 = 32 ∨ (Rect.block (s := S20000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S20000x128.size a
  hwx3_1 : ∀ i : grid3.Coords, EltTy.bits .f32 = 32 ∨ (Rect.block (s := S20000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S20000x128.size a
  hwx3_6 : ∀ i : grid3.Coords, EltTy.bits .f32 = 32 ∨ (Rect.block (s := S20000x128) S5000x128.size (cc3_transform_6 i) (hinb3_6 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S2000000x1_S2000000x128_1_0_n_n_0_1_1128 : GatherDims S100000x128 S2000000x1 S2000000x128 where
  offsetDims := [1]
  collapsedSliceDims := [0]
  operandBatchingDims := []
  startIndicesBatchingDims := []
  startIndexMap := [0]
  indexVectorDim := 1
  sliceSizes := ![1, 128]
  wf := gather_S100000x128_S2000000x1_S2000000x128_1_0_n_n_0_1_1128_wf
def scatter_S20000x128_S2000000x1_S2000000x128_1_0_0_1 : ScatterDims S20000x128 S2000000x1 S2000000x128 where
  updateWindowDims := [1]
  insertedWindowDims := [0]
  scatterDimsToOperandDims := [0]
  indexVectorDim := 1
  wf := scatter_S20000x128_S2000000x1_S2000000x128_1_0_0_1_wf
def gather_S20000x128_S2000000x1_S2000000x128_1_0_n_n_0_1_1128 : GatherDims S20000x128 S2000000x1 S2000000x128 where
  offsetDims := [1]
  collapsedSliceDims := [0]
  operandBatchingDims := []
  startIndicesBatchingDims := []
  startIndexMap := [0]
  indexVectorDim := 1
  sliceSizes := ![1, 128]
  wf := gather_S20000x128_S2000000x1_S2000000x128_1_0_n_n_0_1_1128_wf
def scatter_S100000x128_S2000000x1_S2000000x128_1_0_0_1 : ScatterDims S100000x128 S2000000x1 S2000000x128 where
  updateWindowDims := [1]
  insertedWindowDims := [0]
  scatterDimsToOperandDims := [0]
  indexVectorDim := 1
  wf := scatter_S100000x128_S2000000x1_S2000000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v29) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v31) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v32) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v33) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_arg1) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v34) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v35) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v36) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v37) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v38) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x128 : Shape := ⟨2, ![100000, 128]⟩
abbrev S20000x128 : Shape := ⟨2, ![20000, 128]⟩
abbrev S2000000 : Shape := ⟨1, ![2000000]⟩
abbrev S128x128 : Shape := ⟨2, ![128, 128]⟩
abbrev S128 : Shape := ⟨1, ![128]⟩
abbrev S128x256 : Shape := ⟨2, ![128, 256]⟩
abbrev S1x128 : Shape := ⟨2, ![1, 128]⟩
abbrev S_ : Shape := ⟨0, ![]⟩
abbrev S2000000x1 : Shape := ⟨2, ![2000000, 1]⟩
abbrev S2000000x128 : Shape := ⟨2, ![2000000, 128]⟩
abbrev S20000x256 : Shape := ⟨2, ![20000, 256]⟩
abbrev S256x128 : Shape := ⟨2, ![256, 128]⟩

abbrev nBuf : Space → Nat
  | .hbm => 115
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S20000x128, .f32⟩
  | .hbm, ⟨2, _⟩ => ⟨S2000000, .i32⟩
  | .hbm, ⟨3, _⟩ => ⟨S2000000, .i32⟩
  | .hbm, ⟨4, _⟩ => ⟨S128x128, .f32⟩
  | .hbm, ⟨5, _⟩ => ⟨S128, .f32⟩
  | .hbm, ⟨6, _⟩ => ⟨S128x256, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128x128, .f32⟩
  | .hbm, ⟨17, _⟩ => ⟨S100000x128, .f32⟩
  | .hbm, ⟨18, _⟩ => ⟨S1x128, .f32⟩
  | .hbm, ⟨19, _⟩ => ⟨S100000x128, .f32⟩
  | .hbm, ⟨20, _⟩ => ⟨S100000x128, .f32⟩
  | .hbm, ⟨21, _⟩ => ⟨S100000x128, .f32⟩
  | .hbm, ⟨22, _⟩ => ⟨S100000x128, .f32⟩
  | .hbm, ⟨23, _⟩ => ⟨S_, .f32⟩
  | .hbm, ⟨24, _⟩ => ⟨S100000x128, .f32⟩
  | .hbm, ⟨25, _⟩ => ⟨S100000x128, .f32⟩
  | .hbm, ⟨26, _⟩ => ⟨S_, .f32⟩
  | .hbm, ⟨27, _⟩ => ⟨S100000x128, .f32⟩
  | .hbm, ⟨28, _⟩ => ⟨S100000x128, .f32⟩
  | .hbm, ⟨29, _⟩ => ⟨S_, .i32⟩
  | .hbm, ⟨30, _⟩ => ⟨S2000000, .i32⟩
  | .hbm, ⟨31, _⟩ => ⟨S2000000, .i1⟩
  | .hbm, ⟨32, _⟩ => ⟨S_, .i32⟩
  | .hbm, ⟨33, _⟩ => ⟨S2000000, .i32⟩
  | .hbm, ⟨34, _⟩ => ⟨S2000000, .i32⟩
  | .hbm, ⟨35, _⟩ => ⟨S2000000, .i32⟩
  | .hbm, ⟨36, _⟩ => ⟨S2000000x1, .i32⟩
  | .hbm, ⟨37, _⟩ => ⟨S2000000x128, .f32⟩
  | .hbm, ⟨38, _⟩ => ⟨S_, .f32⟩
  | .hbm, ⟨39, _⟩ => ⟨S20000x128, .f32⟩
  | .hbm, ⟨40, _⟩ => ⟨S2000000x1, .i32⟩
  | .hbm, ⟨41, _⟩ => ⟨S20000x128, .f32⟩
  | .hbm, ⟨42, _⟩ => ⟨S20000x256, .f32⟩
  | .hbm, ⟨43, _⟩ => ⟨S256x128, .f32⟩
  | .hbm, ⟨44, _⟩ => ⟨S20000x128, .f32⟩
  | .hbm, ⟨45, _⟩ => ⟨S1x128, .f32⟩
  | .hbm, ⟨46, _⟩ => ⟨S20000x128, .f32⟩
  | .hbm, ⟨47, _⟩ => ⟨S20000x128, .f32⟩
  | .hbm, ⟨48, _⟩ => ⟨S20000x128, .f32⟩
  | .hbm, ⟨49, _⟩ => ⟨S20000x128, .f32⟩
  | .hbm, ⟨50, _⟩ => ⟨S_, .f32⟩
  | .hbm, ⟨51, _⟩ => ⟨S20000x128, .f32⟩
  | .hbm, ⟨52, _⟩ => ⟨S20000x128, .f32⟩
  | .hbm, ⟨53, _⟩ => ⟨S_, .f32⟩
  | .hbm, ⟨54, _⟩ => ⟨S20000x128, .f32⟩
  | .hbm, ⟨55, _⟩ => ⟨S20000x128, .f32⟩
  | .hbm, ⟨56, _⟩ => ⟨S_, .i32⟩
  | .hbm, ⟨57, _⟩ => ⟨S2000000, .i32⟩
  | .hbm, ⟨58, _⟩ => ⟨S2000000, .i1⟩
  | .hbm, ⟨59, _⟩ => ⟨S_, .i32⟩
  | .hbm, ⟨60, _⟩ => ⟨S2000000, .i32⟩
  | .hbm, ⟨61, _⟩ => ⟨S2000000, .i32⟩
  | .hbm, ⟨62, _⟩ => ⟨S2000000, .i32⟩
  | .hbm, ⟨63, _⟩ => ⟨S2000000x1, .i32⟩
  | .hbm, ⟨64, _⟩ => ⟨S2000000x128, .f32⟩
  | .hbm, ⟨65, _⟩ => ⟨S_, .f32⟩
  | .hbm, ⟨66, _⟩ => ⟨S100000x128, .f32⟩
  | .hbm, ⟨67, _⟩ => ⟨S2000000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S128, .f32⟩
  | .hbm, ⟨74, _⟩ => ⟨S128, .f32⟩
  | .hbm, ⟨75, _⟩ => ⟨S128, .f32⟩
  | .hbm, ⟨76, _⟩ => ⟨S128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S1x128, .f32⟩
  | .hbm, ⟨81, _⟩ => ⟨S100000x128, .f32⟩
  | .hbm, ⟨82, _⟩ => ⟨S100000x128, .f32⟩
  | .hbm, ⟨83, _⟩ => ⟨S100000x128, .f32⟩
  | .hbm, ⟨84, _⟩ => ⟨S100000x128, .f32⟩
  | .hbm, ⟨85, _⟩ => ⟨S100000x128, .f32⟩
  | .hbm, ⟨86, _⟩ => ⟨S_, .f32⟩
  | .hbm, ⟨87, _⟩ => ⟨S100000x128, .f32⟩
  | .hbm, ⟨88, _⟩ => ⟨S100000x128, .f32⟩
  | .hbm, ⟨89, _⟩ => ⟨S_, .f32⟩
  | .hbm, ⟨90, _⟩ => ⟨S100000x128, .f32⟩
  | .hbm, ⟨91, _⟩ => ⟨S100000x128, .f32⟩
  | .hbm, ⟨92, _⟩ => ⟨S1x128, .f32⟩
  | .hbm, ⟨93, _⟩ => ⟨S20000x128, .f32⟩
  | .hbm, ⟨94, _⟩ => ⟨S20000x128, .f32⟩
  | .hbm, ⟨95, _⟩ => ⟨S_, .f32⟩
  | .hbm, ⟨96, _⟩ => ⟨S128, .f32⟩
  | .hbm, ⟨97, _⟩ => ⟨S128, .f32⟩
  | .hbm, ⟨98, _⟩ => ⟨S128, .f32⟩
  | .hbm, ⟨99, _⟩ => ⟨S128, .f32⟩
  | .hbm, ⟨100, _⟩ => ⟨S1x128, .f32⟩
  | .hbm, ⟨101, _⟩ => ⟨S20000x128, .f32⟩
  | .hbm, ⟨102, _⟩ => ⟨S20000x128, .f32⟩
  | .hbm, ⟨103, _⟩ => ⟨S1x128, .f32⟩
  | .hbm, ⟨104, _⟩ => ⟨S20000x128, .f32⟩
  | .hbm, ⟨105, _⟩ => ⟨S20000x128, .f32⟩
  | .hbm, ⟨106, _⟩ => ⟨S20000x128, .f32⟩
  | .hbm, ⟨107, _⟩ => ⟨S20000x128, .f32⟩
  | .hbm, ⟨108, _⟩ => ⟨S20000x128, .f32⟩
  | .hbm, ⟨109, _⟩ => ⟨S_, .f32⟩
  | .hbm, ⟨110, _⟩ => ⟨S20000x128, .f32⟩
  | .hbm, ⟨111, _⟩ => ⟨S20000x128, .f32⟩
  | .hbm, ⟨112, _⟩ => ⟨S_, .f32⟩
  | .hbm, ⟨113, _⟩ => ⟨S20000x128, .f32⟩
  | .hbm, ⟨114, _⟩ => ⟨S20000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_c : Ref sig .tc := ⟨.hbm, 29, rfl⟩
abbrev main_v11 : Ref sig .tc := ⟨.hbm, 30, rfl⟩
abbrev main_v12 : Ref sig .tc := ⟨.hbm, 31, rfl⟩
abbrev main_c_1 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_3 : Ref sig .tc := ⟨.hbm, 50, rfl⟩
abbrev main_v29 : Ref sig .tc := ⟨.hbm, 51, rfl⟩
abbrev main_v30 : Ref sig .tc := ⟨.hbm, 52, rfl⟩
abbrev main_cst_4 : Ref sig .tc := ⟨.hbm, 53, rfl⟩
abbrev main_v31 : Ref sig .tc := ⟨.hbm, 54, rfl⟩
abbrev main_v32 : Ref sig .tc := ⟨.hbm, 55, rfl⟩
abbrev main_c_5 : Ref sig .tc := ⟨.hbm, 56, rfl⟩
abbrev main_v33 : Ref sig .tc := ⟨.hbm, 57, rfl⟩
abbrev main_v34 : Ref sig .tc := ⟨.hbm, 58, rfl⟩
abbrev main_c_6 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_8 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_9 : Ref sig .tc := ⟨.hbm, 86, rfl⟩
abbrev main_v59 : Ref sig .tc := ⟨.hbm, 87, rfl⟩
abbrev main_v60 : Ref sig .tc := ⟨.hbm, 88, rfl⟩
abbrev main_cst_10 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_11 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_12 : Ref sig .tc := ⟨.hbm, 109, rfl⟩
abbrev main_v79 : Ref sig .tc := ⟨.hbm, 110, rfl⟩
abbrev main_v80 : Ref sig .tc := ⟨.hbm, 111, rfl⟩
abbrev main_cst_13 : Ref sig .tc := ⟨.hbm, 112, rfl⟩
abbrev main_v81 : Ref sig .tc := ⟨.hbm, 113, rfl⟩
abbrev main_v82 : Ref sig .tc := ⟨.hbm, 114, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S20000x128 : S_.BroadcastsInDim S20000x128 (![] : Fin 0 → Fin S20000x128.rank)
  concatenates_S20000x128_S20000x128_S20000x256_d1 : Shape.Concatenates [S20000x128, S20000x128] S20000x256 1
  transposes_S128x256_S256x128_1_0 : S128x256.Transposes [1, 0] S256x128
  bcast_S1x128_S20000x128_0_1 : S1x128.BroadcastsInDim S20000x128 (![0, 1] : Fin 2 → Fin S20000x128.rank)
  bcast_S_S128 : S_.BroadcastsInDim S128 (![] : Fin 0 → Fin S128.rank)
  dot_S100000x128_S128x128_S100000x128_1_0_0_1_n_n_wf : DotDims.WF S100000x128 S128x128 S100000x128 [1] [0] [0] [1] [] []
  gather_S100000x128_S2000000x1_S2000000x128_1_0_n_n_0_1_1128_wf : GatherDims.WF S100000x128 S2000000x1 S2000000x128 [1] [0] [] [0] [] 1 ![1, 128]
  scatter_S20000x128_S2000000x1_S2000000x128_1_0_0_1_wf : ScatterDims.WF S20000x128 S2000000x1 S2000000x128 [1] [0] [0] 1
  dot_S20000x256_S256x128_S20000x128_1_0_0_1_n_n_wf : DotDims.WF S20000x256 S256x128 S20000x128 [1] [0] [0] [1] [] []
  gather_S20000x128_S2000000x1_S2000000x128_1_0_n_n_0_1_1128_wf : GatherDims.WF S20000x128 S2000000x1 S2000000x128 [1] [0] [] [0] [] 1 ![1, 128]
  scatter_S100000x128_S2000000x1_S2000000x128_1_0_0_1_wf : ScatterDims.WF S100000x128 S2000000x1 S2000000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S2000000x1_S2000000x128_1_0_n_n_0_1_1128 : GatherDims S100000x128 S2000000x1 S2000000x128 where
  offsetDims := [1]
  collapsedSliceDims := [0]
  operandBatchingDims := []
  startIndicesBatchingDims := []
  startIndexMap := [0]
  indexVectorDim := 1
  sliceSizes := ![1, 128]
  wf := gather_S100000x128_S2000000x1_S2000000x128_1_0_n_n_0_1_1128_wf
def scatter_S20000x128_S2000000x1_S2000000x128_1_0_0_1 : ScatterDims S20000x128 S2000000x1 S2000000x128 where
  updateWindowDims := [1]
  insertedWindowDims := [0]
  scatterDimsToOperandDims := [0]
  indexVectorDim := 1
  wf := scatter_S20000x128_S2000000x1_S2000000x128_1_0_0_1_wf
def dot_S20000x256_S256x128_S20000x128_1_0_0_1_n_n : DotDims S20000x256 S256x128 S20000x128 where
  lhsContracting := [1]
  rhsContracting := [0]
  lhsNonContracting := [0]
  rhsNonContracting := [1]
  lhsBatch := []
  rhsBatch := []
  wf := dot_S20000x256_S256x128_S20000x128_1_0_0_1_n_n_wf
def gather_S20000x128_S2000000x1_S2000000x128_1_0_n_n_0_1_1128 : GatherDims S20000x128 S2000000x1 S2000000x128 where
  offsetDims := [1]
  collapsedSliceDims := [0]
  operandBatchingDims := []
  startIndicesBatchingDims := []
  startIndexMap := [0]
  indexVectorDim := 1
  sliceSizes := ![1, 128]
  wf := gather_S20000x128_S2000000x1_S2000000x128_1_0_n_n_0_1_1128_wf
def scatter_S100000x128_S2000000x1_S2000000x128_1_0_0_1 : ScatterDims S100000x128 S2000000x1 S2000000x128 where
  updateWindowDims := [1]
  insertedWindowDims := [0]
  scatterDimsToOperandDims := [0]
  indexVectorDim := 1
  wf := scatter_S100000x128_S2000000x1_S2000000x128_1_0_0_1_wf

class Facts : Prop extends Facts₀ where

variable [Facts]
-- ==== Proof.Spec.lean ====
/-
  The mathematics of one hypergraph message-passing layer, stated once over the extended reals, index by index.
  Three functions of whole arrays:
  * `linSig x w b`      — the logistic of an affine map along rows: entry (r, j) is σ(Σ_k x[r,k]·w[j,k] + b[j]);
  * `dualLinSig x a w b` — the same for a row that is the concatenation [x[r,:], a[r,:]] against a 128×256 weight:
                            σ(Σ_k x[r,k]·w[j,k] + Σ_k a[r,k]·w[j,128+k] + b[j]);
  * `bnSig x a γ β μ v`  — the logistic of a normalised row plus an aggregate:
                            σ(((x[r,j] − μ[j])·(γ[j]·(v[j] + ε)^(−1/2)) + β[j]) + a[r,j]).
  σ is `Ideal.logistic` (1 / (1 + e^(−z)) with its limits at ±∞), the inverse square root is `Ideal.rsqrt`, ε is the
  single-precision word `0x3727C5AC` read as its exact binary value.
-/
import Idealize.ShloMosaic.PureOps.Ideal
import Idealize.ShloMosaic.PureOps.Ideal.Laws
import Idealize.ShloMosaic.Lib.ValueIdx

noncomputable section

namespace Cert.LayerSpec

open Idealize.ShloMosaic Idealize.ShloMosaic.ValueIdx

/-- A column of the left half of a 256-wide row. -/
abbrev lo (k : Fin 128) : Fin 256 := ⟨k.val, by omega⟩
/-- The matching column of the right half. -/
abbrev hi (k : Fin 128) : Fin 256 := ⟨128 + k.val, by omega⟩

/-- The variance offset of the normalisation, as the exact value of its single-precision word. -/
abbrev eps : EReal := Ideal.ofBits .f32 0x3727C5AC#32

/-- σ(Σ_k x[r,k]·w[j,k] + b[j]). -/
def linSigAt {N : Nat} (x : (⟨2, ![N, 128]⟩ : Shape).Idx → EReal) (w : (⟨2, ![128, 128]⟩ : Shape).Idx → EReal)
    (b : (⟨1, ![128]⟩ : Shape).Idx → EReal) (r : Fin N) (j : Fin 128) : EReal :=
  Ideal.logistic ((∑ k : Fin 128, x (ix2 r k) * w (ix2 j k)) + b (ix1 j))

def linSig {N : Nat} (x : (⟨2, ![N, 128]⟩ : Shape).Idx → EReal) (w : (⟨2, ![128, 128]⟩ : Shape).Idx → EReal)
    (b : (⟨1, ![128]⟩ : Shape).Idx → EReal) : (⟨2, ![N, 128]⟩ : Shape).Idx → EReal :=
  fun i => linSigAt x w b (i 0) (i 1)

/-- σ(Σ_k x[r,k]·w[j,k] + Σ_k a[r,k]·w[j,128+k] + b[j]). -/
def dualLinSigAt {N : Nat} (x a : (⟨2, ![N, 128]⟩ : Shape).Idx → EReal) (w : (⟨2, ![128, 256]⟩ : Shape).Idx → EReal)
    (b : (⟨1, ![128]⟩ : Shape).Idx → EReal) (r : Fin N) (j : Fin 128) : EReal :=
  Ideal.logistic (((∑ k : Fin 128, x (ix2 r k) * w (ix2 j (lo k))) + (∑ k : Fin 128, a (ix2 r k) * w (ix2 j (hi k)))) + b (ix1 j))

def dualLinSig {N : Nat} (x a : (⟨2, ![N, 128]⟩ : Shape).Idx → EReal) (w : (⟨2, ![128, 256]⟩ : Shape).Idx → EReal)
    (b : (⟨1, ![128]⟩ : Shape).Idx → EReal) : (⟨2, ![N, 128]⟩ : Shape).Idx → EReal :=
  fun i => dualLinSigAt x a w b (i 0) (i 1)

/-- σ(((x[r,j] − μ[j])·(γ[j]·(v[j] + ε)^(−1/2)) + β[j]) + a[r,j]). -/
def bnSigAt {N : Nat} (x a : (⟨2, ![N, 128]⟩ : Shape).Idx → EReal) (γ β μ v : (⟨1, ![128]⟩ : Shape).Idx → EReal)
    (r : Fin N) (j : Fin 128) : EReal :=
  Ideal.logistic ((((x (ix2 r j) - μ (ix1 j)) * (γ (ix1 j) * Ideal.rsqrt (v (ix1 j) + eps))) + β (ix1 j)) + a (ix2 r j))

def bnSig {N : Nat} (x a : (⟨2, ![N, 128]⟩ : Shape).Idx → EReal) (γ β μ v : (⟨1, ![128]⟩ : Shape).Idx → EReal) :
    (⟨2, ![N, 128]⟩ : Shape).Idx → EReal :=
  fun i => bnSigAt x a γ β μ v (i 0) (i 1)

end Cert.LayerSpec

end
-- ==== Proof.KKeep.lean ====
/-
  The argument arrays at the boundaries of @main's segments. Boundary 2r+1 is region r's entry (the contents after the
  r-th stretch of host operations), boundary 2r+2 its exit. No host operation writes an argument, and a region either
  does not stage it or stages it through an input window, which is never written back: so at every boundary where
  it is read an argument still holds its launch contents.
-/
import proofs.«159726_j19327352832462_1_alg».proof.Proof.Gen.KernelIdeal.Frame
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

theorem at1_arg0 (c : Dev nD) : W1 m ρ c (Proc.devRef .tc main_arg0) = m ((c : Thread nD τ).loc main_arg0) := by
  show StableHlo.after hostOps0 (W0 m ρ c) (Proc.devRef .tc main_arg0) = _
  after_results <;> rfl
theorem at2_arg0 (c : Dev nD) : W2 m ρ c (Proc.devRef .tc main_arg0) = m ((c : Thread nD τ).loc main_arg0) :=
  (W2_arr m ρ c 0).trans (((dat0 (V1 m ρ) c).arrAt_in 0 rfl _).trans ((A_eq0 (V1 m ρ) c 0).trans (at1_arg0 m ρ c)))
theorem at3_arg0 (c : Dev nD) : W3 m ρ c (Proc.devRef .tc main_arg0) = m ((c : Thread nD τ).loc main_arg0) := by
  show StableHlo.after hostOps1 (W2 m ρ c) (Proc.devRef .tc main_arg0) = _
  after_results <;> exact at2_arg0 m ρ c
theorem at4_arg0 (c : Dev nD) : W4 m ρ c (Proc.devRef .tc main_arg0) = m ((c : Thread nD τ).loc main_arg0) :=
  (W4_of_ne m ρ c main_arg0 (by decide)).trans (at3_arg0 m ρ c)
theorem at5_arg0 (c : Dev nD) : W5 m ρ c (Proc.devRef .tc main_arg0) = m ((c : Thread nD τ).loc main_arg0) := by
  show StableHlo.after hostOps2 (W4 m ρ c) (Proc.devRef .tc main_arg0) = _
  after_results <;> exact at4_arg0 m ρ c

theorem at1_arg1 (c : Dev nD) : W1 m ρ c (Proc.devRef .tc main_arg1) = m ((c : Thread nD τ).loc main_arg1) := by
  show StableHlo.after hostOps0 (W0 m ρ c) (Proc.devRef .tc main_arg1) = _
  after_results <;> rfl
theorem at2_arg1 (c : Dev nD) : W2 m ρ c (Proc.devRef .tc main_arg1) = m ((c : Thread nD τ).loc main_arg1) :=
  (W2_of_ne m ρ c main_arg1 (by decide)).trans (at1_arg1 m ρ c)
theorem at3_arg1 (c : Dev nD) : W3 m ρ c (Proc.devRef .tc main_arg1) = m ((c : Thread nD τ).loc main_arg1) := by
  show StableHlo.after hostOps1 (W2 m ρ c) (Proc.devRef .tc main_arg1) = _
  after_results <;> exact at2_arg1 m ρ c
theorem at4_arg1 (c : Dev nD) : W4 m ρ c (Proc.devRef .tc main_arg1) = m ((c : Thread nD τ).loc main_arg1) :=
  (W4_arr m ρ c 0).trans (((dat1 (V3 m ρ) c).arrAt_in 0 rfl _).trans ((A_eq1 (V3 m ρ) c 0).trans (at3_arg1 m ρ c)))
theorem at5_arg1 (c : Dev nD) : W5 m ρ c (Proc.devRef .tc main_arg1) = m ((c : Thread nD τ).loc main_arg1) := by
  show StableHlo.after hostOps2 (W4 m ρ c) (Proc.devRef .tc main_arg1) = _
  after_results <;> exact at4_arg1 m ρ c
theorem at6_arg1 (c : Dev nD) : W6 m ρ c (Proc.devRef .tc main_arg1) = m ((c : Thread nD τ).loc main_arg1) :=
  (W6_of_ne m ρ c main_arg1 (by decide)).trans (at5_arg1 m ρ c)
theorem at7_arg1 (c : Dev nD) : W7 m ρ c (Proc.devRef .tc main_arg1) = m ((c : Thread nD τ).loc main_arg1) := by
  show StableHlo.after hostOps3 (W6 m ρ c) (Proc.devRef .tc main_arg1) = _
  after_results <;> exact at6_arg1 m ρ c

theorem at1_arg2 (c : Dev nD) : W1 m ρ c (Proc.devRef .tc main_arg2) = m ((c : Thread nD τ).loc main_arg2) := by
  show StableHlo.after hostOps0 (W0 m ρ c) (Proc.devRef .tc main_arg2) = _
  after_results <;> rfl
theorem at2_arg2 (c : Dev nD) : W2 m ρ c (Proc.devRef .tc main_arg2) = m ((c : Thread nD τ).loc main_arg2) :=
  (W2_of_ne m ρ c main_arg2 (by decide)).trans (at1_arg2 m ρ c)
theorem at3_arg2 (c : Dev nD) : W3 m ρ c (Proc.devRef .tc main_arg2) = m ((c : Thread nD τ).loc main_arg2) := by
  show StableHlo.after hostOps1 (W2 m ρ c) (Proc.devRef .tc main_arg2) = _
  after_results <;> exact at2_arg2 m ρ c
theorem at4_arg2 (c : Dev nD) : W4 m ρ c (Proc.devRef .tc main_arg2) = m ((c : Thread nD τ).loc main_arg2) :=
  (W4_of_ne m ρ c main_arg2 (by decide)).trans (at3_arg2 m ρ c)

theorem at1_arg3 (c : Dev nD) : W1 m ρ c (Proc.devRef .tc main_arg3) = m ((c : Thread nD τ).loc main_arg3) := by
  show StableHlo.after hostOps0 (W0 m ρ c) (Proc.devRef .tc main_arg3) = _
  after_results <;> rfl
theorem at2_arg3 (c : Dev nD) : W2 m ρ c (Proc.devRef .tc main_arg3) = m ((c : Thread nD τ).loc main_arg3) :=
  (W2_of_ne m ρ c main_arg3 (by decide)).trans (at1_arg3 m ρ c)
theorem at3_arg3 (c : Dev nD) : W3 m ρ c (Proc.devRef .tc main_arg3) = m ((c : Thread nD τ).loc main_arg3) := by
  show StableHlo.after hostOps1 (W2 m ρ c) (Proc.devRef .tc main_arg3) = _
  after_results <;> exact at2_arg3 m ρ c
theorem at4_arg3 (c : Dev nD) : W4 m ρ c (Proc.devRef .tc main_arg3) = m ((c : Thread nD τ).loc main_arg3) :=
  (W4_of_ne m ρ c main_arg3 (by decide)).trans (at3_arg3 m ρ c)

theorem at1_arg6 (c : Dev nD) : W1 m ρ c (Proc.devRef .tc main_arg6) = m ((c : Thread nD τ).loc main_arg6) := by
  show StableHlo.after hostOps0 (W0 m ρ c) (Proc.devRef .tc main_arg6) = _
  after_results <;> rfl
theorem at2_arg6 (c : Dev nD) : W2 m ρ c (Proc.devRef .tc main_arg6) = m ((c : Thread nD τ).loc main_arg6) :=
  (W2_of_ne m ρ c main_arg6 (by decide)).trans (at1_arg6 m ρ c)

theorem at1_arg7 (c : Dev nD) : W1 m ρ c (Proc.devRef .tc main_arg7) = m ((c : Thread nD τ).loc main_arg7) := by
  show StableHlo.after hostOps0 (W0 m ρ c) (Proc.devRef .tc main_arg7) = _
  after_results <;> rfl
theorem at2_arg7 (c : Dev nD) : W2 m ρ c (Proc.devRef .tc main_arg7) = m ((c : Thread nD τ).loc main_arg7) :=
  (W2_of_ne m ρ c main_arg7 (by decide)).trans (at1_arg7 m ρ c)

theorem at1_arg8 (c : Dev nD) : W1 m ρ c (Proc.devRef .tc main_arg8) = m ((c : Thread nD τ).loc main_arg8) := by
  show StableHlo.after hostOps0 (W0 m ρ c) (Proc.devRef .tc main_arg8) = _
  after_results <;> rfl
theorem at2_arg8 (c : Dev nD) : W2 m ρ c (Proc.devRef .tc main_arg8) = m ((c : Thread nD τ).loc main_arg8) :=
  (W2_of_ne m ρ c main_arg8 (by decide)).trans (at1_arg8 m ρ c)
theorem at3_arg8 (c : Dev nD) : W3 m ρ c (Proc.devRef .tc main_arg8) = m ((c : Thread nD τ).loc main_arg8) := by
  show StableHlo.after hostOps1 (W2 m ρ c) (Proc.devRef .tc main_arg8) = _
  after_results <;> exact at2_arg8 m ρ c
theorem at4_arg8 (c : Dev nD) : W4 m ρ c (Proc.devRef .tc main_arg8) = m ((c : Thread nD τ).loc main_arg8) :=
  (W4_of_ne m ρ c main_arg8 (by decide)).trans (at3_arg8 m ρ c)

theorem at1_arg9 (c : Dev nD) : W1 m ρ c (Proc.devRef .tc main_arg9) = m ((c : Thread nD τ).loc main_arg9) := by
  show StableHlo.after hostOps0 (W0 m ρ c) (Proc.devRef .tc main_arg9) = _
  after_results <;> rfl
theorem at2_arg9 (c : Dev nD) : W2 m ρ c (Proc.devRef .tc main_arg9) = m ((c : Thread nD τ).loc main_arg9) :=
  (W2_of_ne m ρ c main_arg9 (by decide)).trans (at1_arg9 m ρ c)
theorem at3_arg9 (c : Dev nD) : W3 m ρ c (Proc.devRef .tc main_arg9) = m ((c : Thread nD τ).loc main_arg9) := by
  show StableHlo.after hostOps1 (W2 m ρ c) (Proc.devRef .tc main_arg9) = _
  after_results <;> exact at2_arg9 m ρ c
theorem at4_arg9 (c : Dev nD) : W4 m ρ c (Proc.devRef .tc main_arg9) = m ((c : Thread nD τ).loc main_arg9) :=
  (W4_of_ne m ρ c main_arg9 (by decide)).trans (at3_arg9 m ρ c)

theorem at1_arg10 (c : Dev nD) : W1 m ρ c (Proc.devRef .tc main_arg10) = m ((c : Thread nD τ).loc main_arg10) := by
  show StableHlo.after hostOps0 (W0 m ρ c) (Proc.devRef .tc main_arg10) = _
  after_results <;> rfl
theorem at2_arg10 (c : Dev nD) : W2 m ρ c (Proc.devRef .tc main_arg10) = m ((c : Thread nD τ).loc main_arg10) :=
  (W2_of_ne m ρ c main_arg10 (by decide)).trans (at1_arg10 m ρ c)
theorem at3_arg10 (c : Dev nD) : W3 m ρ c (Proc.devRef .tc main_arg10) = m ((c : Thread nD τ).loc main_arg10) := by
  show StableHlo.after hostOps1 (W2 m ρ c) (Proc.devRef .tc main_arg10) = _
  after_results <;> exact at2_arg10 m ρ c
theorem at4_arg10 (c : Dev nD) : W4 m ρ c (Proc.devRef .tc main_arg10) = m ((c : Thread nD τ).loc main_arg10) :=
  (W4_of_ne m ρ c main_arg10 (by decide)).trans (at3_arg10 m ρ c)

theorem at1_arg11 (c : Dev nD) : W1 m ρ c (Proc.devRef .tc main_arg11) = m ((c : Thread nD τ).loc main_arg11) := by
  show StableHlo.after hostOps0 (W0 m ρ c) (Proc.devRef .tc main_arg11) = _
  after_results <;> rfl
theorem at2_arg11 (c : Dev nD) : W2 m ρ c (Proc.devRef .tc main_arg11) = m ((c : Thread nD τ).loc main_arg11) :=
  (W2_of_ne m ρ c main_arg11 (by decide)).trans (at1_arg11 m ρ c)
theorem at3_arg11 (c : Dev nD) : W3 m ρ c (Proc.devRef .tc main_arg11) = m ((c : Thread nD τ).loc main_arg11) := by
  show StableHlo.after hostOps1 (W2 m ρ c) (Proc.devRef .tc main_arg11) = _
  after_results <;> exact at2_arg11 m ρ c
theorem at4_arg11 (c : Dev nD) : W4 m ρ c (Proc.devRef .tc main_arg11) = m ((c : Thread nD τ).loc main_arg11) :=
  (W4_of_ne m ρ c main_arg11 (by decide)).trans (at3_arg11 m ρ c)

theorem at1_arg12 (c : Dev nD) : W1 m ρ c (Proc.devRef .tc main_arg12) = m ((c : Thread nD τ).loc main_arg12) := by
  show StableHlo.after hostOps0 (W0 m ρ c) (Proc.devRef .tc main_arg12) = _
  after_results <;> rfl
theorem at2_arg12 (c : Dev nD) : W2 m ρ c (Proc.devRef .tc main_arg12) = m ((c : Thread nD τ).loc main_arg12) :=
  (W2_of_ne m ρ c main_arg12 (by decide)).trans (at1_arg12 m ρ c)
theorem at3_arg12 (c : Dev nD) : W3 m ρ c (Proc.devRef .tc main_arg12) = m ((c : Thread nD τ).loc main_arg12) := by
  show StableHlo.after hostOps1 (W2 m ρ c) (Proc.devRef .tc main_arg12) = _
  after_results <;> exact at2_arg12 m ρ c
theorem at4_arg12 (c : Dev nD) : W4 m ρ c (Proc.devRef .tc main_arg12) = m ((c : Thread nD τ).loc main_arg12) :=
  (W4_of_ne m ρ c main_arg12 (by decide)).trans (at3_arg12 m ρ c)
theorem at5_arg12 (c : Dev nD) : W5 m ρ c (Proc.devRef .tc main_arg12) = m ((c : Thread nD τ).loc main_arg12) := by
  show StableHlo.after hostOps2 (W4 m ρ c) (Proc.devRef .tc main_arg12) = _
  after_results <;> exact at4_arg12 m ρ c
theorem at6_arg12 (c : Dev nD) : W6 m ρ c (Proc.devRef .tc main_arg12) = m ((c : Thread nD τ).loc main_arg12) :=
  (W6_of_ne m ρ c main_arg12 (by decide)).trans (at5_arg12 m ρ c)

theorem at1_arg13 (c : Dev nD) : W1 m ρ c (Proc.devRef .tc main_arg13) = m ((c : Thread nD τ).loc main_arg13) := by
  show StableHlo.after hostOps0 (W0 m ρ c) (Proc.devRef .tc main_arg13) = _
  after_results <;> rfl
theorem at2_arg13 (c : Dev nD) : W2 m ρ c (Proc.devRef .tc main_arg13) = m ((c : Thread nD τ).loc main_arg13) :=
  (W2_of_ne m ρ c main_arg13 (by decide)).trans (at1_arg13 m ρ c)
theorem at3_arg13 (c : Dev nD) : W3 m ρ c (Proc.devRef .tc main_arg13) = m ((c : Thread nD τ).loc main_arg13) := by
  show StableHlo.after hostOps1 (W2 m ρ c) (Proc.devRef .tc main_arg13) = _
  after_results <;> exact at2_arg13 m ρ c
theorem at4_arg13 (c : Dev nD) : W4 m ρ c (Proc.devRef .tc main_arg13) = m ((c : Thread nD τ).loc main_arg13) :=
  (W4_of_ne m ρ c main_arg13 (by decide)).trans (at3_arg13 m ρ c)
theorem at5_arg13 (c : Dev nD) : W5 m ρ c (Proc.devRef .tc main_arg13) = m ((c : Thread nD τ).loc main_arg13) := by
  show StableHlo.after hostOps2 (W4 m ρ c) (Proc.devRef .tc main_arg13) = _
  after_results <;> exact at4_arg13 m ρ c
theorem at6_arg13 (c : Dev nD) : W6 m ρ c (Proc.devRef .tc main_arg13) = m ((c : Thread nD τ).loc main_arg13) :=
  (W6_of_ne m ρ c main_arg13 (by decide)).trans (at5_arg13 m ρ c)

theorem at1_arg14 (c : Dev nD) : W1 m ρ c (Proc.devRef .tc main_arg14) = m ((c : Thread nD τ).loc main_arg14) := by
  show StableHlo.after hostOps0 (W0 m ρ c) (Proc.devRef .tc main_arg14) = _
  after_results <;> rfl
theorem at2_arg14 (c : Dev nD) : W2 m ρ c (Proc.devRef .tc main_arg14) = m ((c : Thread nD τ).loc main_arg14) :=
  (W2_of_ne m ρ c main_arg14 (by decide)).trans (at1_arg14 m ρ c)
theorem at3_arg14 (c : Dev nD) : W3 m ρ c (Proc.devRef .tc main_arg14) = m ((c : Thread nD τ).loc main_arg14) := by
  show StableHlo.after hostOps1 (W2 m ρ c) (Proc.devRef .tc main_arg14) = _
  after_results <;> exact at2_arg14 m ρ c
theorem at4_arg14 (c : Dev nD) : W4 m ρ c (Proc.devRef .tc main_arg14) = m ((c : Thread nD τ).loc main_arg14) :=
  (W4_of_ne m ρ c main_arg14 (by decide)).trans (at3_arg14 m ρ c)
theorem at5_arg14 (c : Dev nD) : W5 m ρ c (Proc.devRef .tc main_arg14) = m ((c : Thread nD τ).loc main_arg14) := by
  show StableHlo.after hostOps2 (W4 m ρ c) (Proc.devRef .tc main_arg14) = _
  after_results <;> exact at4_arg14 m ρ c
theorem at6_arg14 (c : Dev nD) : W6 m ρ c (Proc.devRef .tc main_arg14) = m ((c : Thread nD τ).loc main_arg14) :=
  (W6_of_ne m ρ c main_arg14 (by decide)).trans (at5_arg14 m ρ c)

theorem at1_arg15 (c : Dev nD) : W1 m ρ c (Proc.devRef .tc main_arg15) = m ((c : Thread nD τ).loc main_arg15) := by
  show StableHlo.after hostOps0 (W0 m ρ c) (Proc.devRef .tc main_arg15) = _
  after_results <;> rfl
theorem at2_arg15 (c : Dev nD) : W2 m ρ c (Proc.devRef .tc main_arg15) = m ((c : Thread nD τ).loc main_arg15) :=
  (W2_of_ne m ρ c main_arg15 (by decide)).trans (at1_arg15 m ρ c)
theorem at3_arg15 (c : Dev nD) : W3 m ρ c (Proc.devRef .tc main_arg15) = m ((c : Thread nD τ).loc main_arg15) := by
  show StableHlo.after hostOps1 (W2 m ρ c) (Proc.devRef .tc main_arg15) = _
  after_results <;> exact at2_arg15 m ρ c
theorem at4_arg15 (c : Dev nD) : W4 m ρ c (Proc.devRef .tc main_arg15) = m ((c : Thread nD τ).loc main_arg15) :=
  (W4_of_ne m ρ c main_arg15 (by decide)).trans (at3_arg15 m ρ c)
theorem at5_arg15 (c : Dev nD) : W5 m ρ c (Proc.devRef .tc main_arg15) = m ((c : Thread nD τ).loc main_arg15) := by
  show StableHlo.after hostOps2 (W4 m ρ c) (Proc.devRef .tc main_arg15) = _
  after_results <;> exact at4_arg15 m ρ c
theorem at6_arg15 (c : Dev nD) : W6 m ρ c (Proc.devRef .tc main_arg15) = m ((c : Thread nD τ).loc main_arg15) :=
  (W6_of_ne m ρ c main_arg15 (by decide)).trans (at5_arg15 m ρ c)

end Cert.KernelIdeal.Fold

end
-- ==== Proof.R0.lean ====
import proofs.«159726_j19327352832462_1_alg».proof.Proof.Gen.KernelIdeal.Frame
import proofs.«159726_j19327352832462_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx Cert.LayerSpec

variable (V : (c : Dev nD) → (b : Ref sig .tc) → Buf (Elt Ideal) ((c : Thread nD τ).loc b))

/-- The two zero offsets of a whole-block access, as the constant function. -/
theorem zero_offsets : (![0, 0] : Fin 2 → Nat) = fun _ => 0 := funext fun a => by
  match a with
  | ⟨0, _⟩ => rfl
  | ⟨1, _⟩ => rfl

/-! ## The product at an index

The product contracts axis 1 of the row block with axis 0 of the weight block: at output index (p, q) and contraction
index k the left operand is read at (p, k) and the right at (k, q). -/

theorem lhs_dot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_dot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_dot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_dot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into the zero accumulator, at (p, q): Σ_k l[p,k]·r[k,q]. -/
theorem product_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-! ## The body's arithmetic at an index -/

/-- The stored block at (p, q): the logistic of row p of the row block against column q of the weight block, plus
    the bias row at q. The narrowing of the operands is the identity on the extended reals. -/
theorem payload_apply (v0 : Vec Ideal S5000x128 .f32) (v2 : Vec Ideal S128x128 .f32) (v6 : Vec Ideal S1x128 .f32)
    (p : Fin 5000) (q : Fin 128) :
    k0_pay1 (F := Ideal) v0 v2 v6 (ix2 p q)
      = Ideal.logistic ((∑ k : Fin 128, v0 (ix2 p k) * v2 (ix2 k q)) + v6 (ix2 (0 : Fin 1) q)) := by
  unfold k0_pay1
  refine congrArg Ideal.logistic ?_
  refine congrArg₂ (· + ·) ?_ ?_
  · refine (product_apply _ _ p q).trans ?_
    refine Finset.sum_congr rfl fun k _ => ?_
    exact congrArg (v0 (ix2 p k) * ·) (congrFun (shapeCast_self v2 _) (ix2 k q))
  · refine (broadcastTo_1b_ab_apply _ _ p q).trans ?_
    exact congrFun (shapeCast_self v6 _) (ix2 (0 : Fin 1) q)

/-! ## The whole-array function -/

/-- σ(Σ_k X[r,k]·W[k,j] + B[0,j]): the entry (r, j) of the result, over the operands as the region finds them
    (the weight already transposed, the bias already a row). -/
def affSigAt (X : S100000x128.Idx → EReal) (W : S128x128.Idx → EReal) (B : S1x128.Idx → EReal)
    (r : Fin 100000) (j : Fin 128) : EReal :=
  Ideal.logistic ((∑ k : Fin 128, X (ix2 r k) * W (ix2 k j)) + B (ix2 (0 : Fin 1) j))

def affSig (X : S100000x128.Idx → EReal) (W : S128x128.Idx → EReal) (B : S1x128.Idx → EReal) :
    S100000x128.Idx → EReal :=
  fun i => affSigAt X W B (i 0) (i 1)

/-- The stored block at (p, q) is entry (r, q) of the whole-array function as soon as row p of the row block is
    row r of the array and the two small blocks are their whole arrays. -/
theorem payload_eq_affSigAt (X : S100000x128.Idx → EReal) (W : S128x128.Idx → EReal) (B : S1x128.Idx → EReal)
    (v0 : Vec Ideal S5000x128 .f32) (v2 : Vec Ideal S128x128 .f32) (v6 : Vec Ideal S1x128 .f32)
    (p : Fin 5000) (q : Fin 128) (r : Fin 100000)
    (h0 : ∀ k : Fin 128, v0 (ix2 p k) = X (ix2 r k)) (h1 : v2 = W) (h2 : v6 = B) :
    k0_pay1 (F := Ideal) v0 v2 v6 (ix2 p q) = affSigAt X W B r q := by
  rw [payload_apply, h1, h2]
  unfold affSigAt
  exact congrArg Ideal.logistic (congrArg (· + B (ix2 (0 : Fin 1) q)) (Finset.sum_congr rfl fun k _ => by rw [h0 k]))

/-! ## The blocks each point reads and writes

Point t reads row block t of the node features and the whole weight and bias arrays, and writes row block t of the
result: block indices (t, 0) for the two long arrays, (0, 0) for the two small ones. -/

theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of point t's row block is row 5000·t + p of the node features. -/
theorem rows_block (c : Dev nD) (t : Fin cfg0.N) (p : Fin 5000) (k : Fin 128) (r : Fin 100000)
    (hr : r.val = t.val * 5000 + p.val) :
    iblk0 (F := Ideal) V c 0 t (ix2 p k) = V c main_arg0 (ix2 r k) := by
  obtain ⟨e0, e1, -⟩ := block_indices t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Every point's weight block is the whole weight array. -/
theorem weight_block (c : Dev nD) (t : Fin cfg0.N) :
    (iblk0 (F := Ideal) V c 1 t : Vec Ideal S128x128 .f32) = (V c main_v0 : S128x128.Idx → EReal) := by
  obtain ⟨-, -, e0, e1, -⟩ := block_indices t
  funext y
  show V c main_v0 (((cfg0.win 1).blk t).view.emb y) = V c main_v0 y
  refine congrArg (V c main_v0) (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- Every point's bias block is the whole bias row. -/
theorem bias_block (c : Dev nD) (t : Fin cfg0.N) :
    (iblk0 (F := Ideal) V c 2 t : Vec Ideal S1x128 .f32) = (V c main_v1 : S1x128.Idx → EReal) := by
  obtain ⟨-, -, -, -, e0, e1, -⟩ := block_indices t
  funext y
  show V c main_v1 (((cfg0.win 2).blk t).view.emb y) = V c main_v1 y
  refine congrArg (V c main_v1) (funext fun a => Fin.ext ?_)
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- What point t writes back is row block t of the whole-array function of the operands as the region finds them. -/
theorem flushed_eq (c : Dev nD) (t : Fin cfg0.N) :
    (dat0 (F := Ideal) V c).flushed 3 t
      = ((cfg0.win 3).blk t).view.read (Elt Ideal) (affSig (V c main_arg0) (V c main_v0) (V c main_v1)) := by
  show (cfg0.win 3).cut (grid0.coords t) ((dat0 (F := Ideal) V c).after 3 t) = _
  rw [after0_3]
  unfold out0_3
  rw [View.canon_unit_zero zero_offsets]
  simp only [View.ld_unit_zero (S := S5000x128) zero_offsets, View.ld_unit_zero (S := S128x128) zero_offsets,
    View.ld_unit_zero (S := S1x128) zero_offsets]
  obtain ⟨-, -, -, -, -, -, e0, e1⟩ := block_indices t
  funext j
  obtain ⟨p, q, rfl⟩ : ∃ (p : Fin 5000) (q : Fin 128), j = ix2 p q := ⟨j 0, j 1, eq_ix2 j⟩
  have hlt : t.val < 20 := t.isLt
  have hq : (((cfg0.win 3).blk t).view.emb (ix2 p q) : S100000x128.Idx) 1 = q :=
    Fin.ext (show win0_3.index t (1 : Fin 2) * 128 + 1 * q.val = q.val by rw [e1]; omega)
  have hr : ((((cfg0.win 3).blk t).view.emb (ix2 p q) : S100000x128.Idx) 0).val = t.val * 5000 + p.val :=
    show win0_3.index t (0 : Fin 2) * 5000 + 1 * p.val = t.val * 5000 + p.val by rw [e0]; omega
  show k0_pay1 (F := Ideal) (iblk0 V c 0 t) (iblk0 V c 1 t) (iblk0 V c 2 t) (ix2 p q)
    = affSigAt (V c main_arg0) (V c main_v0) (V c main_v1)
        ((((cfg0.win 3).blk t).view.emb (ix2 p q) : S100000x128.Idx) 0) ((((cfg0.win 3).blk t).view.emb (ix2 p q) : S100000x128.Idx) 1)
  rw [hq]
  exact payload_eq_affSigAt _ _ _ _ _ _ p q _ (fun k => rows_block V c t p k _ hr) (weight_block V c t) (bias_block V c t)

/-! ## The row blocks tile the array -/

/-- An index of the result array is in point t's block iff each coordinate is in the block's range on its axis. -/
theorem mem_block (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v2).slice (win0_3.rect t)).set ↔ _
  rw [View.set_slice_whole, Rect.mem_set_unit]
  exact Iff.rfl

/-- Row r lies in the block of point r / 5000. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by rw [show cfg0.N = 20 from N_0]; omega⟩, rfl⟩
  obtain ⟨-, -, -, -, -, -, e0, e1⟩ := block_indices t
  refine ⟨t, flush0_3 t, ?_⟩
  rw [mem_block]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 128 ≤ (i 1).val ∧ (i 1).val < win0_3.index t (1 : Fin 2) * 128 + 128
    rw [e1]; omega

/-- The result array after the last point is the whole-array function of the operands as the region finds them. -/
theorem arr_eq_affSig (c : Dev nD) :
    (dat0 (F := Ideal) V c).arrAt 3 cfg0.N = affSig (V c main_arg0) (V c main_v0) (V c main_v1) :=
  (dat0 (F := Ideal) V c).arrAt_eq_of_cover 3 (affSig (V c main_arg0) (V c main_v0) (V c main_v1))
    (fun t _ => flushed_eq V c t) covered

/-- Region 0's output array after its 20 grid points: row block t is the logistic of the affine image of row block t
    of the staged node features, so the whole array is `linSig` of the operands as the region finds them. -/
theorem value (c : Dev nD) (x : S100000x128.Idx → EReal) (w : S128x128.Idx → EReal) (b : S128.Idx → EReal)
    (hx : V c main_arg0 = x) (hw : ∀ k j : Fin 128, V c main_v0 (ix2 k j) = w (ix2 j k))
    (hb : ∀ j : Fin 128, V c main_v1 (ix2 (0 : Fin 1) j) = b (ix1 j)) :
    (dat0 (F := Ideal) V c).arrAt 3 cfg0.N = linSig x w b := by
  rw [arr_eq_affSig V c]
  funext i
  obtain ⟨r, j, rfl⟩ : ∃ (r : Fin 100000) (j : Fin 128), i = ix2 r j := ⟨i 0, i 1, eq_ix2 i⟩
  show affSigAt (V c main_arg0) (V c main_v0) (V c main_v1) r j = linSigAt x w b r j
  unfold affSigAt linSigAt
  rw [hx, hb j]
  exact congrArg Ideal.logistic (congrArg (· + b (ix1 j)) (Finset.sum_congr rfl fun k _ => by rw [hw k j]))

end Cert.KernelIdeal.Region0

end
-- ==== Proof.R1.lean ====
import proofs.«159726_j19327352832462_1_alg».proof.Proof.Gen.KernelIdeal.Frame
import proofs.«159726_j19327352832462_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx Cert.LayerSpec

variable (V : (c : Dev nD) → (b : Ref sig .tc) → Buf (Elt Ideal) ((c : Thread nD τ).loc b))

/-! ## The contraction at an index

The record of both products contracts axis 1 of the left operand with axis 0 of the right one; the left operand's
axis 0 and the right operand's axis 1 are the result's two axes. -/

/-- The left operand's row is the result's row. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contraction index. -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contraction index. -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column is the result's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A product into the zero accumulator, at row `p` and column `q`: Σ_k A[p,k]·B[k,q]. -/
theorem matmul_at (A : FVec Ideal S5000x128 .bf16) (B : FVec Ideal S128x128 .bf16) (p : Fin 5000) (q : Fin 128) :
    matmul (F := Ideal) dot_S5000x128_S128x128_S5000x128_1_0_0_1_n_n none A B (constant (F := Ideal) S5000x128 .f32 0x00000000#32) (ix2 p q)
      = ∑ k : Fin 128, A (ix2 p k) * B (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## The body's arithmetic at an index -/

/-- The bias row broadcast down the 5000 rows reads the row's entry of the column. -/
theorem bias_at (y : Vec Ideal S1x128 .f32) (p : Fin 5000) (q : Fin 128) :
    broadcastTo S5000x128 y broadcasts_S1x128_S5000x128 (ix2 p q) = y (ix2 (0 : Fin 1) q) := by
  refine broadcastTo_apply y broadcasts_S1x128_S5000x128 (ix2 p q) (ix2 (0 : Fin 1) q) fun a => ?_
  match a with
  | ⟨0, _⟩ => rfl
  | ⟨1, _⟩ => rfl

/-- The stored value at row `p` and column `q` of a block: the logistic of the two 128-term products added, plus
    the bias of the column. -/
theorem pay_at (x0 x2 : Vec Ideal S5000x128 .f32) (x5 x8 : Vec Ideal S128x128 .f32) (x14 : Vec Ideal S1x128 .f32)
    (p : Fin 5000) (q : Fin 128) :
    k1_pay1 (F := Ideal) x0 x2 x5 x8 x14 (ix2 p q)
      = Ideal.logistic (((∑ k : Fin 128, x0 (ix2 p k) * x5 (ix2 k q)) + (∑ k : Fin 128, x2 (ix2 p k) * x8 (ix2 k q)))
          + x14 (ix2 (0 : Fin 1) q)) := by
  unfold k1_pay1
  simp only [shapeCast_self]
  refine congrArg Ideal.logistic ?_
  refine congrArg₂ (· + ·) (congrArg₂ (· + ·) ?_ ?_) ?_
  · exact matmul_at _ _ p q
  · exact matmul_at _ _ p q
  · exact bias_at x14 p q

/-! ## The blocks

Point `t` of the 4 reads rows `5000·t … 5000·t + 4999` of the two row operands and writes the same rows of the
result; the two weight matrices and the bias row are read whole at every point. -/

theorem hz : (![0, 0] : Fin 2 → Nat) = fun _ => 0 := funext fun a => by fin_cases a <;> rfl

/-- The block indices, decided over the 4 points: the row operands' blocks move with the result's, whose row block
    is below 4; every other block index is zero. -/
theorem idx_facts : ∀ t : Fin cfg1.N, win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 3 ∧ win1_5.index t (1 : Fin 2) = 0 :=
  (by decide +kernel : ∀ t : Fin grid1.N, _)

/-- Entry (p, k) of the first row operand's block at point `t` is entry (r, k) of the array, `r` the block's row `p`. -/
theorem read_x (c : Dev nD) (t : Fin cfg1.N) (p : Fin 5000) (k : Fin 128) (r : Fin 20000)
    (hr : r.val = win1_5.index t (0 : Fin 2) * 5000 + p.val) :
    (iblk1 (F := Ideal) V c 0 t : Vec Ideal S5000x128 .f32) (ix2 p k) = V c main_arg1 (ix2 r k) := by
  obtain ⟨e0, e1, -⟩ := idx_facts t
  show V c main_arg1 (((cfg1.win 0).blk t).view.emb (ix2 p k)) = V c main_arg1 (ix2 r k)
  refine congrArg _ (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- The same for the second row operand. -/
theorem read_a (c : Dev nD) (t : Fin cfg1.N) (p : Fin 5000) (k : Fin 128) (r : Fin 20000)
    (hr : r.val = win1_5.index t (0 : Fin 2) * 5000 + p.val) :
    (iblk1 (F := Ideal) V c 1 t : Vec Ideal S5000x128 .f32) (ix2 p k) = V c main_v12 (ix2 r k) := by
  obtain ⟨-, -, e0, e1, -⟩ := idx_facts t
  show V c main_v12 (((cfg1.win 1).blk t).view.emb (ix2 p k)) = V c main_v12 (ix2 r k)
  refine congrArg _ (funext fun a => Fin.ext ?_)
  match a with
  | ⟨0, _⟩ => show win1_1.index t (0 : Fin 2) * 5000 + 1 * p.val = r.val; omega
  | ⟨1, _⟩ => show win1_1.index t (1 : Fin 2) * 128 + 1 * k.val = k.val; omega

/-- The first weight matrix's block is the matrix. -/
theorem read_w1 (c : Dev nD) (t : Fin cfg1.N) (k q : Fin 128) :
    (iblk1 (F := Ideal) V c 2 t : Vec Ideal S128x128 .f32) (ix2 k q) = V c main_v15 (ix2 k q) := by
  obtain ⟨-, -, -, -, e0, e1, -⟩ := idx_facts t
  show V c main_v15 (((cfg1.win 2).blk t).view.emb (ix2 k q)) = V c main_v15 (ix2 k q)
  refine congrArg _ (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

/-- The second weight matrix's block is the matrix. -/
theorem read_w2 (c : Dev nD) (t : Fin cfg1.N) (k q : Fin 128) :
    (iblk1 (F := Ideal) V c 3 t : Vec Ideal S128x128 .f32) (ix2 k q) = V c main_v16 (ix2 k q) := by
  obtain ⟨-, -, -, -, -, -, e0, e1, -⟩ := idx_facts t
  show V c main_v16 (((cfg1.win 3).blk t).view.emb (ix2 k q)) = V c main_v16 (ix2 k q)
  refine congrArg _ (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- The bias row's block is the row. -/
theorem read_b (c : Dev nD) (t : Fin cfg1.N) (q : Fin 128) :
    (iblk1 (F := Ideal) V c 4 t : Vec Ideal S1x128 .f32) (ix2 (0 : Fin 1) q) = V c main_v17 (ix2 (0 : Fin 1) q) := by
  obtain ⟨-, -, -, -, -, -, -, -, e0, e1, -⟩ := idx_facts t
  show V c main_v17 (((cfg1.win 4).blk t).view.emb (ix2 (0 : Fin 1) q)) = V c main_v17 (ix2 (0 : Fin 1) q)
  refine congrArg _ (funext fun a => Fin.ext ?_)
  match a with
  | ⟨0, _⟩ => show win1_4.index t (0 : Fin 2) * 1 + 1 * (0 : Fin 1).val = (0 : Fin 1).val; omega
  | ⟨1, _⟩ => show win1_4.index t (1 : Fin 2) * 128 + 1 * q.val = q.val; omega

/-- Every row block of the result is some point's. -/
theorem idx_onto : ∀ n : Fin 4, ∃ t : Fin cfg1.N, win1_5.index t (0 : Fin 2) = n.val :=
  (by decide +kernel : ∀ n : Fin 4, ∃ t : Fin grid1.N, win1_5.index t (0 : Fin 2) = n.val)

/-- What point `t` writes back is its block of the layer's array: at row `p` and column `q` of the block, the row
    operands are read at the array's row `r` of that block's row `p`, and each weight matrix `W` of the kernel at (k, q)
    is the layer's 256-column weight at (q, k) of its own half. -/
theorem flushed_eq (c : Dev nD) (x a : S20000x128.Idx → EReal) (w : S128x256.Idx → EReal) (b : S128.Idx → EReal)
    (hx : V c main_arg1 = x) (ha : V c main_v12 = a)
    (hw1 : ∀ k j : Fin 128, V c main_v15 (ix2 k j) = w (ix2 j (lo k)))
    (hw2 : ∀ k j : Fin 128, V c main_v16 (ix2 k j) = w (ix2 j (hi k)))
    (hb : ∀ j : Fin 128, V c main_v17 (ix2 (0 : Fin 1) j) = b (ix1 j)) (t : Fin cfg1.N) :
    (dat1 (F := Ideal) V c).flushed 5 t = ((cfg1.win 5).blk t).view.read (Elt Ideal) (dualLinSig x a w b) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨-, -, -, -, -, -, -, -, -, -, e0, e1⟩ := idx_facts t
  funext j
  obtain ⟨p, q, rfl⟩ : ∃ (p : Fin 5000) (q : Fin 128), j = ix2 p q := ⟨j 0, j 1, eq_ix2 j⟩
  have hp : p.val < 5000 := p.isLt
  obtain ⟨r, hr⟩ : ∃ r : Fin 20000, r.val = win1_5.index t (0 : Fin 2) * 5000 + p.val := ⟨⟨_, by omega⟩, rfl⟩
  have hi : ((cfg1.win 5).blk t).view.emb (ix2 p q) = ix2 r q := funext fun a => Fin.ext (by
    match a with
    | ⟨0, _⟩ => show win1_5.index t (0 : Fin 2) * 5000 + 1 * p.val = r.val; omega
    | ⟨1, _⟩ => show win1_5.index t (1 : Fin 2) * 128 + 1 * q.val = q.val; omega)
  show k1_pay1 (F := Ideal) (iblk1 V c 0 t) (iblk1 V c 1 t) (iblk1 V c 2 t) (iblk1 V c 3 t) (iblk1 V c 4 t) (ix2 p q)
    = dualLinSig x a w b (((cfg1.win 5).blk t).view.emb (ix2 p q))
  rw [hi, pay_at]
  show _ = dualLinSigAt x a w b r q
  unfold dualLinSigAt
  refine congrArg Ideal.logistic ?_
  refine congrArg₂ (· + ·) (congrArg₂ (· + ·) ?_ ?_) ?_
  · refine Finset.sum_congr rfl fun k _ => ?_
    rw [read_x V c t p k r hr, read_w1 V c t k q, hx, hw1]
  · refine Finset.sum_congr rfl fun k _ => ?_
    rw [read_a V c t p k r hr, read_w2 V c t k q, ha, hw2]
  · rw [read_b V c t q, hb]

/-- An index of the result is in point `t`'s block iff each coordinate is in the block's range on its axis. -/
theorem mem_blk (t : Fin cfg1.N) (i : S20000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v18).slice (win1_5.rect t)).set ↔ _
  rw [View.set_slice_whole, Rect.mem_set_unit]
  exact Iff.rfl

/-- Row `r` of the result lies in the block of the point whose row block is `r / 5000`. -/
theorem covered (i : S20000x128.Idx) :
    ∃ t : Fin cfg1.N, (cfg1.win 5).flush t = true ∧ i ∈ ((cfg1.win 5).blk t).view.set := by
  have hi0 : (i 0).val < 20000 := (i 0).isLt
  have hi1 : (i 1).val < 128 := (i 1).isLt
  obtain ⟨t, ht⟩ := idx_onto ⟨(i 0).val / 5000, by omega⟩
  have q0 : win1_5.index t (0 : Fin 2) = (i 0).val / 5000 := ht
  obtain ⟨-, -, -, -, -, -, -, -, -, -, e0, e1⟩ := idx_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- Region 1's output array after its 4 grid points: the sum of the two 128-term contractions is the 256-term
    contraction of the concatenated row, so the whole array is `dualLinSig` of the operands as the region finds them. -/
theorem value (c : Dev nD) (x a : S20000x128.Idx → EReal) (w : S128x256.Idx → EReal) (b : S128.Idx → EReal)
    (hx : V c main_arg1 = x) (ha : V c main_v12 = a)
    (hw1 : ∀ k j : Fin 128, V c main_v15 (ix2 k j) = w (ix2 j (lo k)))
    (hw2 : ∀ k j : Fin 128, V c main_v16 (ix2 k j) = w (ix2 j (hi k)))
    (hb : ∀ j : Fin 128, V c main_v17 (ix2 (0 : Fin 1) j) = b (ix1 j)) :
    (dat1 (F := Ideal) V c).arrAt 5 cfg1.N = dualLinSig x a w b := by
  exact (dat1 (F := Ideal) V c).arrAt_eq_of_cover 5 (dualLinSig x a w b)
    (fun t _ => flushed_eq V c x a w b hx ha hw1 hw2 hb t) covered

end Cert.KernelIdeal.Region1

end
-- ==== Proof.R2.lean ====
import proofs.«159726_j19327352832462_1_alg».proof.Proof.Gen.KernelIdeal.Frame
import proofs.«159726_j19327352832462_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.SL.Sem
open Idealize.ShloMosaic.Pipeline (Dat)
open Idealize.ShloMosaic.ValueIdx Cert.LayerSpec

variable (V : (c : Dev nD) → (b : Ref sig .tc) → Buf (Elt Ideal) ((c : Thread nD τ).loc b))

/-- The body's arithmetic at row `p`, column `q` of a block: the four [1,128] rows enter at column `q` of their one
    row, the reciprocal root taken on the row before it is spread over the rows. -/
theorem payload_apply (x0 a0 : Vec Ideal S5000x128 .f32) (g b m vr : Vec Ideal S1x128 .f32) (p : Fin 5000) (q : Fin 128) :
    k2_pay1 (F := Ideal) x0 g b m vr a0 (ix2 p q)
      = Ideal.logistic ((((x0 (ix2 p q) - m (ix2 (0 : Fin 1) q)) * (g (ix2 (0 : Fin 1) q) * Ideal.rsqrt (vr (ix2 (0 : Fin 1) q) + eps))) + b (ix2 (0 : Fin 1) q)) + a0 (ix2 p q)) := by
  unfold k2_pay1
  simp only [shapeCast_self]
  show Ideal.logistic ((((x0 (ix2 p q) - broadcastTo S5000x128 m broadcasts_S1x128_S5000x128 (ix2 p q))
      * broadcastTo S5000x128 (mulf g (rsqrt (addf vr (broadcast S1x128 (FloatOps.ofBits (F := Ideal) FTy.f32 0x3727C5AC#32))))) broadcasts_S1x128_S5000x128 (ix2 p q))
      + broadcastTo S5000x128 b broadcasts_S1x128_S5000x128 (ix2 p q)) + a0 (ix2 p q)) = _
  rw [broadcastTo_1b_ab_apply m, broadcastTo_1b_ab_apply b, broadcastTo_1b_ab_apply]
  rfl

/-! ## The windows at a grid point -/

theorem hz : (![0, 0] : Fin 2 → Nat) = fun _ => 0 := funext fun a => by fin_cases a <;> rfl

/-- The index maps, decided once over the 20 grid points: the two row-block inputs and the output take block `t` of
    the rows at point `t` and the one block of columns; the four [1,128] rows stay at their one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Row `p`, column `q` of the output's block at point `t` is row `5000·t + p`, column `q` of the array. -/
theorem emb_out (t : Fin cfg2.N) (p : Fin 5000) (q : Fin 128) (h : t.val * 5000 + p.val < 100000) :
    ((cfg2.win 6).blk t).view.emb (ix2 p q) = ix2 (⟨t.val * 5000 + p.val, h⟩ : Fin 100000) q := by
  obtain ⟨-, -, -, -, -, -, -, -, -, -, -, -, e0, e1⟩ := idx_facts t
  funext a; apply Fin.ext
  match a with
  | ⟨0, _⟩ => show win2_6.index t (0 : Fin 2) * 5000 + 1 * p.val = t.val * 5000 + p.val; omega
  | ⟨1, _⟩ => show win2_6.index t (1 : Fin 2) * 128 + 1 * q.val = q.val; omega

/-- The node-feature block at point `t` is the array read where the output's block lies. -/
theorem read_x (c : Dev nD) (t : Fin cfg2.N) (y : S5000x128.Idx) :
    iblk2 V c 0 t y = V c main_arg0 (((cfg2.win 6).blk t).view.emb y) := by
  show V c main_arg0 (((cfg2.win 0).blk t).view.emb y) = V c main_arg0 (((cfg2.win 6).blk t).view.emb y)
  refine congrArg (V c main_arg0) ?_
  obtain ⟨e0, e1, -, -, -, -, -, -, -, -, -, -, f0, f1⟩ := idx_facts t
  funext a; apply Fin.ext
  match a with
  | ⟨0, _⟩ => show win2_0.index t (0 : Fin 2) * 5000 + 1 * (y 0).val = win2_6.index t (0 : Fin 2) * 5000 + 1 * (y 0).val; omega
  | ⟨1, _⟩ => show win2_0.index t (1 : Fin 2) * 128 + 1 * (y 1).val = win2_6.index t (1 : Fin 2) * 128 + 1 * (y 1).val; omega

/-- The aggregate's block at point `t` is the array read where the output's block lies. -/
theorem read_a (c : Dev nD) (t : Fin cfg2.N) (y : S5000x128.Idx) :
    iblk2 V c 1 t y = V c main_v28 (((cfg2.win 6).blk t).view.emb y) := by
  show V c main_v28 (((cfg2.win 1).blk t).view.emb y) = V c main_v28 (((cfg2.win 6).blk t).view.emb y)
  refine congrArg (V c main_v28) ?_
  obtain ⟨-, -, e0, e1, -, -, -, -, -, -, -, -, f0, f1⟩ := idx_facts t
  funext a; apply Fin.ext
  match a with
  | ⟨0, _⟩ => show win2_1.index t (0 : Fin 2) * 5000 + 1 * (y 0).val = win2_6.index t (0 : Fin 2) * 5000 + 1 * (y 0).val; omega
  | ⟨1, _⟩ => show win2_1.index t (1 : Fin 2) * 128 + 1 * (y 1).val = win2_6.index t (1 : Fin 2) * 128 + 1 * (y 1).val; omega

/-- The scale row's block at every point is the whole [1,128] array. -/
theorem read_g (c : Dev nD) (t : Fin cfg2.N) (y : S1x128.Idx) : iblk2 V c 2 t y = V c main_v29 y := by
  show V c main_v29 (((cfg2.win 2).blk t).view.emb y) = V c main_v29 y
  refine congrArg (V c main_v29) ?_
  obtain ⟨-, -, -, -, e0, e1, -⟩ := idx_facts t
  funext a; apply Fin.ext
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- The shift row's block at every point is the whole [1,128] array. -/
theorem read_b (c : Dev nD) (t : Fin cfg2.N) (y : S1x128.Idx) : iblk2 V c 3 t y = V c main_v30 y := by
  show V c main_v30 (((cfg2.win 3).blk t).view.emb y) = V c main_v30 y
  refine congrArg (V c main_v30) ?_
  obtain ⟨-, -, -, -, -, -, e0, e1, -⟩ := idx_facts t
  funext a; apply Fin.ext
  match a with
  | ⟨0, _⟩ => show win2_3.index t (0 : Fin 2) * 1 + 1 * (y 0).val = (y 0).val; omega
  | ⟨1, _⟩ => show win2_3.index t (1 : Fin 2) * 128 + 1 * (y 1).val = (y 1).val; omega

/-- The mean row's block at every point is the whole [1,128] array. -/
theorem read_m (c : Dev nD) (t : Fin cfg2.N) (y : S1x128.Idx) : iblk2 V c 4 t y = V c main_v31 y := by
  show V c main_v31 (((cfg2.win 4).blk t).view.emb y) = V c main_v31 y
  refine congrArg (V c main_v31) ?_
  obtain ⟨-, -, -, -, -, -, -, -, e0, e1, -⟩ := idx_facts t
  funext a; apply Fin.ext
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- The variance row's block at every point is the whole [1,128] array. -/
theorem read_v (c : Dev nD) (t : Fin cfg2.N) (y : S1x128.Idx) : iblk2 V c 5 t y = V c main_v32 y := by
  show V c main_v32 (((cfg2.win 5).blk t).view.emb y) = V c main_v32 y
  refine congrArg (V c main_v32) ?_
  obtain ⟨-, -, -, -, -, -, -, -, -, -, e0, e1, -⟩ := idx_facts t
  funext a; apply Fin.ext
  match a with
  | ⟨0, _⟩ => show win2_5.index t (0 : Fin 2) * 1 + 1 * (y 0).val = (y 0).val; omega
  | ⟨1, _⟩ => show win2_5.index t (1 : Fin 2) * 128 + 1 * (y 1).val = (y 1).val; omega

/-! ## The whole array -/

/-- The output at row `r`, column `j`, of two [100000,128] arrays and four [1,128] rows. -/
def outAt (x a : S100000x128.Idx → EReal) (g b m vr : S1x128.Idx → EReal) (r : Fin 100000) (j : Fin 128) : EReal :=
  Ideal.logistic ((((x (ix2 r j) - m (ix2 (0 : Fin 1) j)) * (g (ix2 (0 : Fin 1) j) * Ideal.rsqrt (vr (ix2 (0 : Fin 1) j) + eps)))
      + b (ix2 (0 : Fin 1) j)) + a (ix2 r j))

/-- The output array, entry by entry, from the arrays as the region finds them. -/
def out (c : Dev nD) : S100000x128.Idx → EReal := fun i =>
  outAt (V c main_arg0) (V c main_v28) (V c main_v29) (V c main_v30) (V c main_v31) (V c main_v32) (i 0) (i 1)

theorem out_ix2 (c : Dev nD) (r : Fin 100000) (j : Fin 128) :
    out V c (ix2 r j) = outAt (V c main_arg0) (V c main_v28) (V c main_v29) (V c main_v30) (V c main_v31) (V c main_v32) r j := rfl

/-- What point `t` writes back is block `t` of the output array. -/
theorem flushed_eq (c : Dev nD) (t : Fin cfg2.N) :
    (dat2 (F := Ideal) V c).flushed 6 t = ((cfg2.win 6).blk t).view.read (Elt Ideal) (out V c) := by
  show (cfg2.win 6).cut (grid2.coords t) ((dat2 (F := Ideal) V c).after 6 t) = _
  rw [after2_6]
  unfold out2_6
  rw [View.canon_unit_zero hz]
  simp only [View.ld_unit_zero (S := S5000x128) hz, View.ld_unit_zero (S := S1x128) hz]
  funext y
  obtain ⟨p, q, rfl⟩ : ∃ (p : Fin 5000) (q : Fin 128), y = ix2 p q := ⟨y 0, y 1, eq_ix2 y⟩
  have ht : t.val < 20 := t.isLt
  have hp : p.val < 5000 := p.isLt
  have hr : t.val * 5000 + p.val < 100000 := by omega
  show k2_pay1 (F := Ideal) (iblk2 V c 0 t) (iblk2 V c 2 t) (iblk2 V c 3 t) (iblk2 V c 4 t) (iblk2 V c 5 t) (iblk2 V c 1 t) (ix2 p q)
      = out V c (((cfg2.win 6).blk t).view.emb (ix2 p q))
  refine (payload_apply _ _ _ _ _ _ p q).trans ?_
  rw [read_x, read_a, read_g, read_b, read_m, read_v, emb_out t p q hr, out_ix2]
  rfl

/-! ## The cover -/

/-- An index of the array is in point `t`'s block iff each coordinate is in the block's range on its axis. -/
theorem mem_blk (t : Fin cfg2.N) (i : S100000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v33).slice (win2_6.rect t)).set ↔ _
  rw [View.set_slice_whole, Rect.mem_set_unit]
  exact Iff.rfl

/-- Row `r` lies in the block of point `r / 5000`. -/
theorem cover (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  refine ⟨⟨(i 0).val / 5000, by show (i 0).val / 5000 < 20; omega⟩, flush2_6 _, ?_⟩
  rw [mem_blk]
  obtain ⟨-, -, -, -, -, -, -, -, -, -, -, -, e0, e1⟩ := idx_facts ⟨(i 0).val / 5000, by show (i 0).val / 5000 < 20; omega⟩
  intro a
  match a with
  | ⟨0, _⟩ =>
    show win2_6.index ⟨(i 0).val / 5000, _⟩ (0 : Fin 2) * 5000 ≤ (i 0).val ∧ (i 0).val < win2_6.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win2_6.index ⟨(i 0).val / 5000, _⟩ (1 : Fin 2) * 128 ≤ (i 1).val ∧ (i 1).val < win2_6.index ⟨(i 0).val / 5000, _⟩ (1 : Fin 2) * 128 + 128
    rw [e1]; omega

/-- The output array after the region's 20 points, from the arrays as the region finds them. -/
theorem final (c : Dev nD) : (dat2 (F := Ideal) V c).arrAt 6 cfg2.N = out V c :=
  (dat2 (F := Ideal) V c).arrAt_eq_of_cover 6 (out V c) (fun t _ => flushed_eq V c t) cover

/-- Region 2's output array after its 20 grid points: entry by entry the logistic of the normalised node feature plus
    the aggregate, `bnSig` of the operands as the region finds them. -/
theorem value (c : Dev nD) (x a : S100000x128.Idx → EReal) (γ β μ v : S128.Idx → EReal)
    (hx : V c main_arg0 = x) (ha : V c main_v28 = a)
    (hγ : ∀ j : Fin 128, V c main_v29 (ix2 (0 : Fin 1) j) = γ (ix1 j))
    (hβ : ∀ j : Fin 128, V c main_v30 (ix2 (0 : Fin 1) j) = β (ix1 j))
    (hμ : ∀ j : Fin 128, V c main_v31 (ix2 (0 : Fin 1) j) = μ (ix1 j))
    (hv : ∀ j : Fin 128, V c main_v32 (ix2 (0 : Fin 1) j) = v (ix1 j)) :
    (dat2 (F := Ideal) V c).arrAt 6 cfg2.N = bnSig x a γ β μ v := by
  rw [final]
  funext i
  obtain ⟨r, j, rfl⟩ : ∃ (r : Fin 100000) (j : Fin 128), i = ix2 r j := ⟨i 0, i 1, eq_ix2 i⟩
  show outAt (V c main_arg0) (V c main_v28) (V c main_v29) (V c main_v30) (V c main_v31) (V c main_v32) r j = bnSigAt x a γ β μ v r j
  unfold outAt bnSigAt
  rw [hx, ha, hγ, hβ, hμ, hv]

end Cert.KernelIdeal.Region2

end
-- ==== Proof.R3.lean ====
import proofs.«159726_j19327352832462_1_alg».proof.Proof.Gen.KernelIdeal.Frame
import proofs.«159726_j19327352832462_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen Idealize.ShloMosaic Idealize.ShloMosaic.TcCoe Idealize.SL.Sem
open Idealize.ShloMosaic.Pipeline (Dat)
open Idealize.ShloMosaic.ValueIdx Cert.LayerSpec

variable (V : (c : Dev nD) → (b : Ref sig .tc) → Buf (Elt Ideal) ((c : Thread nD τ).loc b))

/-- The body's arithmetic at row `p`, column `q` of a block: the four [1,128] rows enter at column `q` of their one
    row, the reciprocal root taken on the row before it is spread over the rows. -/
theorem payload_apply (x0 a0 : Vec Ideal S5000x128 .f32) (g b m vr : Vec Ideal S1x128 .f32) (p : Fin 5000) (q : Fin 128) :
    k3_pay1 (F := Ideal) x0 g b m vr a0 (ix2 p q)
      = Ideal.logistic ((((x0 (ix2 p q) - m (ix2 (0 : Fin 1) q)) * (g (ix2 (0 : Fin 1) q) * Ideal.rsqrt (vr (ix2 (0 : Fin 1) q) + eps))) + b (ix2 (0 : Fin 1) q)) + a0 (ix2 p q)) := by
  unfold k3_pay1
  simp only [shapeCast_self]
  show Ideal.logistic ((((x0 (ix2 p q) - broadcastTo S5000x128 m broadcasts_S1x128_S5000x128 (ix2 p q))
      * broadcastTo S5000x128 (mulf g (rsqrt (addf vr (broadcast S1x128 (FloatOps.ofBits (F := Ideal) FTy.f32 0x3727C5AC#32))))) broadcasts_S1x128_S5000x128 (ix2 p q))
      + broadcastTo S5000x128 b broadcasts_S1x128_S5000x128 (ix2 p q)) + a0 (ix2 p q)) = _
  rw [broadcastTo_1b_ab_apply m, broadcastTo_1b_ab_apply b, broadcastTo_1b_ab_apply]
  rfl

/-! ## The windows at a grid point -/

theorem hz : (![0, 0] : Fin 2 → Nat) = fun _ => 0 := funext fun a => by fin_cases a <;> rfl

/-- The index maps, decided once over the 4 grid points: the two row-block inputs and the output take block `t` of
    the rows at point `t` and the one block of columns; the four [1,128] rows stay at their one block. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Row `p`, column `q` of the output's block at point `t` is row `5000·t + p`, column `q` of the array. -/
theorem emb_out (t : Fin cfg3.N) (p : Fin 5000) (q : Fin 128) (h : t.val * 5000 + p.val < 20000) :
    ((cfg3.win 6).blk t).view.emb (ix2 p q) = ix2 (⟨t.val * 5000 + p.val, h⟩ : Fin 20000) q := by
  obtain ⟨-, -, -, -, -, -, -, -, -, -, -, -, e0, e1⟩ := idx_facts t
  funext a; apply Fin.ext
  match a with
  | ⟨0, _⟩ => show win3_6.index t (0 : Fin 2) * 5000 + 1 * p.val = t.val * 5000 + p.val; omega
  | ⟨1, _⟩ => show win3_6.index t (1 : Fin 2) * 128 + 1 * q.val = q.val; omega

/-- The hyperedge-feature block at point `t` is the array read where the output's block lies. -/
theorem read_x (c : Dev nD) (t : Fin cfg3.N) (y : S5000x128.Idx) :
    iblk3 V c 0 t y = V c main_arg1 (((cfg3.win 6).blk t).view.emb y) := by
  show V c main_arg1 (((cfg3.win 0).blk t).view.emb y) = V c main_arg1 (((cfg3.win 6).blk t).view.emb y)
  refine congrArg (V c main_arg1) ?_
  obtain ⟨e0, e1, -, -, -, -, -, -, -, -, -, -, f0, f1⟩ := idx_facts t
  funext a; apply Fin.ext
  match a with
  | ⟨0, _⟩ => show win3_0.index t (0 : Fin 2) * 5000 + 1 * (y 0).val = win3_6.index t (0 : Fin 2) * 5000 + 1 * (y 0).val; omega
  | ⟨1, _⟩ => show win3_0.index t (1 : Fin 2) * 128 + 1 * (y 1).val = win3_6.index t (1 : Fin 2) * 128 + 1 * (y 1).val; omega

/-- The aggregate's block at point `t` is the array read where the output's block lies. -/
theorem read_a (c : Dev nD) (t : Fin cfg3.N) (y : S5000x128.Idx) :
    iblk3 V c 1 t y = V c main_v12 (((cfg3.win 6).blk t).view.emb y) := by
  show V c main_v12 (((cfg3.win 1).blk t).view.emb y) = V c main_v12 (((cfg3.win 6).blk t).view.emb y)
  refine congrArg (V c main_v12) ?_
  obtain ⟨-, -, e0, e1, -, -, -, -, -, -, -, -, f0, f1⟩ := idx_facts t
  funext a; apply Fin.ext
  match a with
  | ⟨0, _⟩ => show win3_1.index t (0 : Fin 2) * 5000 + 1 * (y 0).val = win3_6.index t (0 : Fin 2) * 5000 + 1 * (y 0).val; omega
  | ⟨1, _⟩ => show win3_1.index t (1 : Fin 2) * 128 + 1 * (y 1).val = win3_6.index t (1 : Fin 2) * 128 + 1 * (y 1).val; omega

/-- The scale row's block at every point is the whole [1,128] array. -/
theorem read_g (c : Dev nD) (t : Fin cfg3.N) (y : S1x128.Idx) : iblk3 V c 2 t y = V c main_v34 y := by
  show V c main_v34 (((cfg3.win 2).blk t).view.emb y) = V c main_v34 y
  refine congrArg (V c main_v34) ?_
  obtain ⟨-, -, -, -, e0, e1, -⟩ := idx_facts t
  funext a; apply Fin.ext
  match a with
  | ⟨0, _⟩ => show win3_2.index t (0 : Fin 2) * 1 + 1 * (y 0).val = (y 0).val; omega
  | ⟨1, _⟩ => show win3_2.index t (1 : Fin 2) * 128 + 1 * (y 1).val = (y 1).val; omega

/-- The shift row's block at every point is the whole [1,128] array. -/
theorem read_b (c : Dev nD) (t : Fin cfg3.N) (y : S1x128.Idx) : iblk3 V c 3 t y = V c main_v35 y := by
  show V c main_v35 (((cfg3.win 3).blk t).view.emb y) = V c main_v35 y
  refine congrArg (V c main_v35) ?_
  obtain ⟨-, -, -, -, -, -, e0, e1, -⟩ := idx_facts t
  funext a; apply Fin.ext
  match a with
  | ⟨0, _⟩ => show win3_3.index t (0 : Fin 2) * 1 + 1 * (y 0).val = (y 0).val; omega
  | ⟨1, _⟩ => show win3_3.index t (1 : Fin 2) * 128 + 1 * (y 1).val = (y 1).val; omega

/-- The mean row's block at every point is the whole [1,128] array. -/
theorem read_m (c : Dev nD) (t : Fin cfg3.N) (y : S1x128.Idx) : iblk3 V c 4 t y = V c main_v36 y := by
  show V c main_v36 (((cfg3.win 4).blk t).view.emb y) = V c main_v36 y
  refine congrArg (V c main_v36) ?_
  obtain ⟨-, -, -, -, -, -, -, -, e0, e1, -⟩ := idx_facts t
  funext a; apply Fin.ext
  match a with
  | ⟨0, _⟩ => show win3_4.index t (0 : Fin 2) * 1 + 1 * (y 0).val = (y 0).val; omega
  | ⟨1, _⟩ => show win3_4.index t (1 : Fin 2) * 128 + 1 * (y 1).val = (y 1).val; omega

/-- The variance row's block at every point is the whole [1,128] array. -/
theorem read_v (c : Dev nD) (t : Fin cfg3.N) (y : S1x128.Idx) : iblk3 V c 5 t y = V c main_v37 y := by
  show V c main_v37 (((cfg3.win 5).blk t).view.emb y) = V c main_v37 y
  refine congrArg (V c main_v37) ?_
  obtain ⟨-, -, -, -, -, -, -, -, -, -, e0, e1, -⟩ := idx_facts t
  funext a; apply Fin.ext
  match a with
  | ⟨0, _⟩ => show win3_5.index t (0 : Fin 2) * 1 + 1 * (y 0).val = (y 0).val; omega
  | ⟨1, _⟩ => show win3_5.index t (1 : Fin 2) * 128 + 1 * (y 1).val = (y 1).val; omega

/-! ## The whole array -/

/-- The output at row `r`, column `j`, of two [20000,128] arrays and four [1,128] rows. -/
def outAt (x a : S20000x128.Idx → EReal) (g b m vr : S1x128.Idx → EReal) (r : Fin 20000) (j : Fin 128) : EReal :=
  Ideal.logistic ((((x (ix2 r j) - m (ix2 (0 : Fin 1) j)) * (g (ix2 (0 : Fin 1) j) * Ideal.rsqrt (vr (ix2 (0 : Fin 1) j) + eps)))
      + b (ix2 (0 : Fin 1) j)) + a (ix2 r j))

/-- The output array, entry by entry, from the arrays as the region finds them. -/
def out (c : Dev nD) : S20000x128.Idx → EReal := fun i =>
  outAt (V c main_arg1) (V c main_v12) (V c main_v34) (V c main_v35) (V c main_v36) (V c main_v37) (i 0) (i 1)

theorem out_ix2 (c : Dev nD) (r : Fin 20000) (j : Fin 128) :
    out V c (ix2 r j) = outAt (V c main_arg1) (V c main_v12) (V c main_v34) (V c main_v35) (V c main_v36) (V c main_v37) r j := rfl

/-- What point `t` writes back is block `t` of the output array. -/
theorem flushed_eq (c : Dev nD) (t : Fin cfg3.N) :
    (dat3 (F := Ideal) V c).flushed 6 t = ((cfg3.win 6).blk t).view.read (Elt Ideal) (out V c) := by
  show (cfg3.win 6).cut (grid3.coords t) ((dat3 (F := Ideal) V c).after 6 t) = _
  rw [after3_6]
  unfold out3_6
  rw [View.canon_unit_zero hz]
  simp only [View.ld_unit_zero (S := S5000x128) hz, View.ld_unit_zero (S := S1x128) hz]
  funext y
  obtain ⟨p, q, rfl⟩ : ∃ (p : Fin 5000) (q : Fin 128), y = ix2 p q := ⟨y 0, y 1, eq_ix2 y⟩
  have ht : t.val < 4 := t.isLt
  have hp : p.val < 5000 := p.isLt
  have hr : t.val * 5000 + p.val < 20000 := by omega
  show k3_pay1 (F := Ideal) (iblk3 V c 0 t) (iblk3 V c 2 t) (iblk3 V c 3 t) (iblk3 V c 4 t) (iblk3 V c 5 t) (iblk3 V c 1 t) (ix2 p q)
      = out V c (((cfg3.win 6).blk t).view.emb (ix2 p q))
  refine (payload_apply _ _ _ _ _ _ p q).trans ?_
  rw [read_x, read_a, read_g, read_b, read_m, read_v, emb_out t p q hr, out_ix2]
  rfl

/-! ## The cover -/

/-- An index of the array is in point `t`'s block iff each coordinate is in the block's range on its axis. -/
theorem mem_blk (t : Fin cfg3.N) (i : S20000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v38).slice (win3_6.rect t)).set ↔ _
  rw [View.set_slice_whole, Rect.mem_set_unit]
  exact Iff.rfl

/-- Row `r` lies in the block of point `r / 5000`. -/
theorem cover (i : S20000x128.Idx) :
    ∃ t : Fin cfg3.N, (cfg3.win 6).flush t = true ∧ i ∈ ((cfg3.win 6).blk t).view.set := by
  have hi0 : (i 0).val < 20000 := (i 0).isLt
  have hi1 : (i 1).val < 128 := (i 1).isLt
  refine ⟨⟨(i 0).val / 5000, by show (i 0).val / 5000 < 4; omega⟩, flush3_6 _, ?_⟩
  rw [mem_blk]
  obtain ⟨-, -, -, -, -, -, -, -, -, -, -, -, e0, e1⟩ := idx_facts ⟨(i 0).val / 5000, by show (i 0).val / 5000 < 4; omega⟩
  intro a
  match a with
  | ⟨0, _⟩ =>
    show win3_6.index ⟨(i 0).val / 5000, _⟩ (0 : Fin 2) * 5000 ≤ (i 0).val ∧ (i 0).val < win3_6.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win3_6.index ⟨(i 0).val / 5000, _⟩ (1 : Fin 2) * 128 ≤ (i 1).val ∧ (i 1).val < win3_6.index ⟨(i 0).val / 5000, _⟩ (1 : Fin 2) * 128 + 128
    rw [e1]; omega

/-- The output array after the region's 4 points, from the arrays as the region finds them. -/
theorem final (c : Dev nD) : (dat3 (F := Ideal) V c).arrAt 6 cfg3.N = out V c :=
  (dat3 (F := Ideal) V c).arrAt_eq_of_cover 6 (out V c) (fun t _ => flushed_eq V c t) cover

/-- Region 3's output array after its 4 grid points: entry by entry the logistic of the normalised hyperedge feature
    plus the aggregate, `bnSig` of the operands as the region finds them. -/
theorem value (c : Dev nD) (x a : S20000x128.Idx → EReal) (γ β μ v : S128.Idx → EReal)
    (hx : V c main_arg1 = x) (ha : V c main_v12 = a)
    (hγ : ∀ j : Fin 128, V c main_v34 (ix2 (0 : Fin 1) j) = γ (ix1 j))
    (hβ : ∀ j : Fin 128, V c main_v35 (ix2 (0 : Fin 1) j) = β (ix1 j))
    (hμ : ∀ j : Fin 128, V c main_v36 (ix2 (0 : Fin 1) j) = μ (ix1 j))
    (hv : ∀ j : Fin 128, V c main_v37 (ix2 (0 : Fin 1) j) = v (ix1 j)) :
    (dat3 (F := Ideal) V c).arrAt 6 cfg3.N = bnSig x a γ β μ v := by
  rw [final]
  funext i
  obtain ⟨r, j, rfl⟩ : ∃ (r : Fin 20000) (j : Fin 128), i = ix2 r j := ⟨i 0, i 1, eq_ix2 i⟩
  show outAt (V c main_arg1) (V c main_v12) (V c main_v34) (V c main_v35) (V c main_v36) (V c main_v37) r j = bnSigAt x a γ β μ v r j
  unfold outAt bnSigAt
  rw [hx, ha, hγ, hβ, hμ, hv]

end Cert.KernelIdeal.Region3

end
-- ==== Proof.KHost.lean ====
/-
  The values @main's host stretches and regions leave at each boundary, as functions of the launch contents.
  Region 0 computes the node messages σ(x₀·W_nhᵀ + b_nh); the first aggregate gathers their rows by (wrapped) node index
  and adds them up by hyperedge index; region 1 computes the hyperedge messages from the hyperedge features and that
  aggregate through the two halves of W_en; the second aggregate gathers those by (wrapped) hyperedge index and adds
  them up by node index; regions 2 and 3 normalise the node and hyperedge features, add the aggregates and apply σ.
  The two aggregates are carried as opaque functions of the array they read.
-/
import proofs.«159726_j19327352832462_1_alg».proof.Proof.Gen.KernelIdeal.Frame
import proofs.«159726_j19327352832462_1_alg».proof.Proof.Spec
import proofs.«159726_j19327352832462_1_alg».proof.Proof.KKeep
import proofs.«159726_j19327352832462_1_alg».proof.Proof.R0
import proofs.«159726_j19327352832462_1_alg».proof.Proof.R1
import proofs.«159726_j19327352832462_1_alg».proof.Proof.R2
import proofs.«159726_j19327352832462_1_alg».proof.Proof.R3
import Idealize.ShloMosaic.Lib.Pipeline.Value
import Idealize.ShloMosaic.Lib.ValueIdx
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo
open Idealize.ShloMosaic.Pipeline (Dat)
open Idealize.ShloMosaic.ValueIdx Cert.LayerSpec

/-! ## Layout operations of the host stretches, read at an index -/

/-- Entry (k, j) of a transposed square matrix is entry (j, k). -/
theorem transpose_at (x : (⟨S128x128, .f32⟩ : BufTy).Contents (Elt Ideal)) (k j : Fin 128) :
    transpose S128x128 [1, 0] x transposes_S128x128_S128x128_1_0 (ix2 k j) = x (ix2 j k) :=
  transpose_apply [1, 0] x transposes_S128x128_S128x128_1_0 (ix2 k j) (ix2 j k) (fun b => match b with
    | ⟨0, _⟩ => rfl
    | ⟨1, _⟩ => rfl)

/-- Entry (a, k) of the left 128 columns of a 128×256 matrix. -/
theorem slice_lo_at (x : (⟨S128x256, .f32⟩ : BufTy).Contents (Elt Ideal)) (a k : Fin 128) :
    extractStridedSlice S128x128 ![0, 0] x slices_S128x256_S128x128_0_0 (ix2 a k) = x (ix2 a (lo k)) :=
  extractStridedSlice_apply ![0, 0] x slices_S128x256_S128x128_0_0 (ix2 a k) (ix2 a (lo k)) (fun b => match b with
    | ⟨0, _⟩ => by show a.val = 0 + a.val; omega
    | ⟨1, _⟩ => by show k.val = 0 + k.val; omega)

/-- Entry (a, k) of the right 128 columns of a 128×256 matrix. -/
theorem slice_hi_at (x : (⟨S128x256, .f32⟩ : BufTy).Contents (Elt Ideal)) (a k : Fin 128) :
    extractStridedSlice S128x128 ![0, 128] x slices_S128x256_S128x128_0_128 (ix2 a k) = x (ix2 a (hi k)) :=
  extractStridedSlice_apply ![0, 128] x slices_S128x256_S128x128_0_128 (ix2 a k) (ix2 a (hi k)) (fun b => match b with
    | ⟨0, _⟩ => by show a.val = 0 + a.val; omega
    | ⟨1, _⟩ => by show 128 + k.val = 128 + k.val; rfl)

/-- A vector of 128 entries recast as a 1×128 row: entry (0, j) is entry j. -/
theorem row_at (x : (⟨S128, .f32⟩ : BufTy).Contents (Elt Ideal)) (j : Fin 128) :
    shapeCast S1x128 x shapeCasts_S128_S1x128 (ix2 (0 : Fin 1) j) = x (ix1 j) :=
  (shapeCast_addUnit_apply ![128] x shapeCasts_S128_S1x128 (ix2 (0 : Fin 1) j)).trans
    (congrArg x (funext fun a => match a with | ⟨0, _⟩ => rfl))

/-! ## The two aggregates -/

/-- Gather the rows of `nm` at the node indices (a negative index wrapped by the number of nodes) and add them up by
    hyperedge index, from zero. -/
def aggE (nm : FVec Ideal S100000x128 .f32) (i2 i3 : IVec S2000000 32) : FVec Ideal S20000x128 .f32 :=
  Host.scatterAdd (F := Ideal) scatter_S20000x128_S2000000x1_S2000000x128_1_0_0_1
    (broadcastInDim S20000x128 ![] bcast_S_S20000x128 (constant (F := Ideal) S_ .f32 0x00000000#32))
    (broadcastInDim S2000000x1 ![0] bcast_S2000000_S2000000x1_0 i3)
    (Host.gather gather_S100000x128_S2000000x1_S2000000x128_1_0_n_n_0_1_1128 nm
      (broadcastInDim S2000000x1 ![0] bcast_S2000000_S2000000x1_0
        (select (cmpi .slt i2 (broadcastInDim S2000000 ![] bcast_S_S2000000 (constantI S_ 32 0#32)))
          (addi i2 (broadcastInDim S2000000 ![] bcast_S_S2000000 (constantI S_ 32 100000#32))) i2)))

/-- Gather the rows of `hm` at the hyperedge indices (a negative index wrapped by the number of hyperedges) and add them
    up by node index, from zero. -/
def aggN (hm : FVec Ideal S20000x128 .f32) (i2 i3 : IVec S2000000 32) : FVec Ideal S100000x128 .f32 :=
  Host.scatterAdd (F := Ideal) scatter_S100000x128_S2000000x1_S2000000x128_1_0_0_1
    (broadcastInDim S100000x128 ![] bcast_S_S100000x128 (constant (F := Ideal) S_ .f32 0x00000000#32))
    (broadcastInDim S2000000x1 ![0] bcast_S2000000_S2000000x1_0 i2)
    (Host.gather gather_S20000x128_S2000000x1_S2000000x128_1_0_n_n_0_1_1128 hm
      (broadcastInDim S2000000x1 ![0] bcast_S2000000_S2000000x1_0
        (select (cmpi .slt i3 (broadcastInDim S2000000 ![] bcast_S_S2000000 (constantI S_ 32 0#32)))
          (addi i3 (broadcastInDim S2000000 ![] bcast_S_S2000000 (constantI S_ 32 20000#32))) i3)))

variable (m : (ℓ : Loc nD τ sig) → Buf (Elt Ideal) ℓ) (ρ : Dev nD → PrngReg)

/-! ## Region 0: the node messages -/

theorem at1_v0 (c : Dev nD) : W1 m ρ c (Proc.devRef .tc main_v0)
    = transpose S128x128 [1, 0] (m ((c : Thread nD τ).loc main_arg4)) transposes_S128x128_S128x128_1_0 := by
  show StableHlo.after hostOps0 (W0 m ρ c) (Proc.devRef .tc main_v0) = _
  after_results <;> rfl

theorem at1_v1 (c : Dev nD) : W1 m ρ c (Proc.devRef .tc main_v1)
    = (fun i => shapeCast S1x128 (m ((c : Thread nD τ).loc main_arg5)) shapeCasts_S128_S1x128 i) := by
  show StableHlo.after hostOps0 (W0 m ρ c) (Proc.devRef .tc main_v1) = _
  after_results <;> rfl

/-- After region 0 its output array holds σ(x₀·W_nhᵀ + b_nh). -/
theorem nodeMsg (c : Dev nD) : W2 m ρ c (Proc.devRef .tc main_v2)
    = linSig (m ((c : Thread nD τ).loc main_arg0)) (m ((c : Thread nD τ).loc main_arg4)) (m ((c : Thread nD τ).loc main_arg5)) :=
  (W2_arr m ρ c 3).trans (Region0.value (V1 m ρ) c _ _ _ (at1_arg0 m ρ c)
    (fun k j => (congrFun (at1_v0 m ρ c) (ix2 k j)).trans (transpose_at _ k j))
    (fun j => (congrFun (at1_v1 m ρ c) (ix2 (0 : Fin 1) j)).trans (row_at _ j)))

/-! ## Region 1: the hyperedge messages -/

theorem at3_v12 (c : Dev nD) : W3 m ρ c (Proc.devRef .tc main_v12)
    = aggE (linSig (m ((c : Thread nD τ).loc main_arg0)) (m ((c : Thread nD τ).loc main_arg4)) (m ((c : Thread nD τ).loc main_arg5))) (m ((c : Thread nD τ).loc main_arg2)) (m ((c : Thread nD τ).loc main_arg3)) := by
  show StableHlo.after hostOps1 (W2 m ρ c) (Proc.devRef .tc main_v12) = _
  after_results
  rw [at2_arg2 m ρ c, at2_arg3 m ρ c, nodeMsg m ρ c]
  rfl

theorem at3_v15 (c : Dev nD) : W3 m ρ c (Proc.devRef .tc main_v15)
    = transpose S128x128 [1, 0] (extractStridedSlice S128x128 ![0, 0] (m ((c : Thread nD τ).loc main_arg6)) slices_S128x256_S128x128_0_0) transposes_S128x128_S128x128_1_0 := by
  show StableHlo.after hostOps1 (W2 m ρ c) (Proc.devRef .tc main_v15) = _
  after_results
  rw [at2_arg6 m ρ c]

theorem at3_v16 (c : Dev nD) : W3 m ρ c (Proc.devRef .tc main_v16)
    = transpose S128x128 [1, 0] (extractStridedSlice S128x128 ![0, 128] (m ((c : Thread nD τ).loc main_arg6)) slices_S128x256_S128x128_0_128) transposes_S128x128_S128x128_1_0 := by
  show StableHlo.after hostOps1 (W2 m ρ c) (Proc.devRef .tc main_v16) = _
  after_results
  rw [at2_arg6 m ρ c]

theorem at3_v17 (c : Dev nD) : W3 m ρ c (Proc.devRef .tc main_v17)
    = (fun i => shapeCast S1x128 (m ((c : Thread nD τ).loc main_arg7)) shapeCasts_S128_S1x128 i) := by
  show StableHlo.after hostOps1 (W2 m ρ c) (Proc.devRef .tc main_v17) = _
  after_results
  rw [at2_arg7 m ρ c]
  rfl

/-- After region 1 its output array holds σ(x₁·W₁ᵀ + agg·W₂ᵀ + b_en), W₁ and W₂ the two halves of W_en. -/
theorem edgeMsg (c : Dev nD) : W4 m ρ c (Proc.devRef .tc main_v18)
    = dualLinSig (m ((c : Thread nD τ).loc main_arg1)) (aggE (linSig (m ((c : Thread nD τ).loc main_arg0)) (m ((c : Thread nD τ).loc main_arg4)) (m ((c : Thread nD τ).loc main_arg5))) (m ((c : Thread nD τ).loc main_arg2)) (m ((c : Thread nD τ).loc main_arg3)))
        (m ((c : Thread nD τ).loc main_arg6)) (m ((c : Thread nD τ).loc main_arg7)) :=
  (W4_arr m ρ c 5).trans (Region1.value (V3 m ρ) c _ _ _ _ (at3_arg1 m ρ c) (at3_v12 m ρ c)
    (fun k j => (congrFun (at3_v15 m ρ c) (ix2 k j)).trans ((transpose_at _ k j).trans (slice_lo_at _ j k)))
    (fun k j => (congrFun (at3_v16 m ρ c) (ix2 k j)).trans ((transpose_at _ k j).trans (slice_hi_at _ j k)))
    (fun j => (congrFun (at3_v17 m ρ c) (ix2 (0 : Fin 1) j)).trans (row_at _ j)))

/-! ## Region 2: the updated node features -/

theorem at5_v28 (c : Dev nD) : W5 m ρ c (Proc.devRef .tc main_v28)
    = aggN (W4 m ρ c (Proc.devRef .tc main_v18)) (m ((c : Thread nD τ).loc main_arg2)) (m ((c : Thread nD τ).loc main_arg3)) := by
  show StableHlo.after hostOps2 (W4 m ρ c) (Proc.devRef .tc main_v28) = _
  after_results
  rw [at4_arg2 m ρ c, at4_arg3 m ρ c]
  rfl

theorem at5_v29 (c : Dev nD) : W5 m ρ c (Proc.devRef .tc main_v29) = (fun i => shapeCast S1x128 (m ((c : Thread nD τ).loc main_arg8)) shapeCasts_S128_S1x128 i) := by
  show StableHlo.after hostOps2 (W4 m ρ c) (Proc.devRef .tc main_v29) = _
  after_results
  rw [at4_arg8 m ρ c]
  rfl
theorem at5_v30 (c : Dev nD) : W5 m ρ c (Proc.devRef .tc main_v30) = (fun i => shapeCast S1x128 (m ((c : Thread nD τ).loc main_arg9)) shapeCasts_S128_S1x128 i) := by
  show StableHlo.after hostOps2 (W4 m ρ c) (Proc.devRef .tc main_v30) = _
  after_results
  rw [at4_arg9 m ρ c]
  rfl
theorem at5_v31 (c : Dev nD) : W5 m ρ c (Proc.devRef .tc main_v31) = (fun i => shapeCast S1x128 (m ((c : Thread nD τ).loc main_arg10)) shapeCasts_S128_S1x128 i) := by
  show StableHlo.after hostOps2 (W4 m ρ c) (Proc.devRef .tc main_v31) = _
  after_results
  rw [at4_arg10 m ρ c]
  rfl
theorem at5_v32 (c : Dev nD) : W5 m ρ c (Proc.devRef .tc main_v32) = (fun i => shapeCast S1x128 (m ((c : Thread nD τ).loc main_arg11)) shapeCasts_S128_S1x128 i) := by
  show StableHlo.after hostOps2 (W4 m ρ c) (Proc.devRef .tc main_v32) = _
  after_results
  rw [at4_arg11 m ρ c]
  rfl

/-- After region 2 its output array holds the updated node features. -/
theorem nodeOut6 (c : Dev nD) : W6 m ρ c (Proc.devRef .tc main_v33)
    = bnSig (m ((c : Thread nD τ).loc main_arg0)) (aggN (W4 m ρ c (Proc.devRef .tc main_v18)) (m ((c : Thread nD τ).loc main_arg2)) (m ((c : Thread nD τ).loc main_arg3)))
        (m ((c : Thread nD τ).loc main_arg8)) (m ((c : Thread nD τ).loc main_arg9)) (m ((c : Thread nD τ).loc main_arg10)) (m ((c : Thread nD τ).loc main_arg11)) :=
  (W6_arr m ρ c 6).trans (Region2.value (V5 m ρ) c _ _ _ _ _ _ (at5_arg0 m ρ c) (at5_v28 m ρ c)
    (fun j => (congrFun (at5_v29 m ρ c) (ix2 (0 : Fin 1) j)).trans (row_at _ j))
    (fun j => (congrFun (at5_v30 m ρ c) (ix2 (0 : Fin 1) j)).trans (row_at _ j))
    (fun j => (congrFun (at5_v31 m ρ c) (ix2 (0 : Fin 1) j)).trans (row_at _ j))
    (fun j => (congrFun (at5_v32 m ρ c) (ix2 (0 : Fin 1) j)).trans (row_at _ j)))

/-- Neither the last host stretch nor region 3 writes region 2's output. -/
theorem nodeOut (c : Dev nD) : W8 m ρ c (Proc.devRef .tc main_v33)
    = bnSig (m ((c : Thread nD τ).loc main_arg0)) (aggN (dualLinSig (m ((c : Thread nD τ).loc main_arg1)) (aggE (linSig (m ((c : Thread nD τ).loc main_arg0)) (m ((c : Thread nD τ).loc main_arg4)) (m ((c : Thread nD τ).loc main_arg5))) (m ((c : Thread nD τ).loc main_arg2)) (m ((c : Thread nD τ).loc main_arg3)))
        (m ((c : Thread nD τ).loc main_arg6)) (m ((c : Thread nD τ).loc main_arg7))) (m ((c : Thread nD τ).loc main_arg2)) (m ((c : Thread nD τ).loc main_arg3)))
        (m ((c : Thread nD τ).loc main_arg8)) (m ((c : Thread nD τ).loc main_arg9)) (m ((c : Thread nD τ).loc main_arg10)) (m ((c : Thread nD τ).loc main_arg11)) := by
  refine (W8_of_ne m ρ c main_v33 (by decide)).trans ?_
  have h7 : W7 m ρ c (Proc.devRef .tc main_v33) = W6 m ρ c (Proc.devRef .tc main_v33) := by
    show StableHlo.after hostOps3 (W6 m ρ c) (Proc.devRef .tc main_v33) = _
    after_results <;> rfl
  rw [h7, nodeOut6 m ρ c, edgeMsg m ρ c]

/-! ## Region 3: the updated hyperedge features -/

/-- The first aggregate is still in its buffer when region 3 reads it: region 1 stages it through an input window, and
    nothing after writes it. -/
theorem at7_v12 (c : Dev nD) : W7 m ρ c (Proc.devRef .tc main_v12) = W3 m ρ c (Proc.devRef .tc main_v12) := by
  have h7 : W7 m ρ c (Proc.devRef .tc main_v12) = W6 m ρ c (Proc.devRef .tc main_v12) := by
    show StableHlo.after hostOps3 (W6 m ρ c) (Proc.devRef .tc main_v12) = _
    after_results <;> rfl
  have h5 : W5 m ρ c (Proc.devRef .tc main_v12) = W4 m ρ c (Proc.devRef .tc main_v12) := by
    show StableHlo.after hostOps2 (W4 m ρ c) (Proc.devRef .tc main_v12) = _
    after_results <;> rfl
  exact h7.trans ((W6_of_ne m ρ c main_v12 (by decide)).trans (h5.trans
    ((W4_arr m ρ c 1).trans (((dat1 (V3 m ρ) c).arrAt_in 1 rfl _).trans (A_eq1 (V3 m ρ) c 1)))))

theorem at7_v34 (c : Dev nD) : W7 m ρ c (Proc.devRef .tc main_v34) = (fun i => shapeCast S1x128 (m ((c : Thread nD τ).loc main_arg12)) shapeCasts_S128_S1x128 i) := by
  show StableHlo.after hostOps3 (W6 m ρ c) (Proc.devRef .tc main_v34) = _
  after_results
  rw [at6_arg12 m ρ c]
  rfl
theorem at7_v35 (c : Dev nD) : W7 m ρ c (Proc.devRef .tc main_v35) = (fun i => shapeCast S1x128 (m ((c : Thread nD τ).loc main_arg13)) shapeCasts_S128_S1x128 i) := by
  show StableHlo.after hostOps3 (W6 m ρ c) (Proc.devRef .tc main_v35) = _
  after_results
  rw [at6_arg13 m ρ c]
  rfl
theorem at7_v36 (c : Dev nD) : W7 m ρ c (Proc.devRef .tc main_v36) = (fun i => shapeCast S1x128 (m ((c : Thread nD τ).loc main_arg14)) shapeCasts_S128_S1x128 i) := by
  show StableHlo.after hostOps3 (W6 m ρ c) (Proc.devRef .tc main_v36) = _
  after_results
  rw [at6_arg14 m ρ c]
  rfl
theorem at7_v37 (c : Dev nD) : W7 m ρ c (Proc.devRef .tc main_v37) = (fun i => shapeCast S1x128 (m ((c : Thread nD τ).loc main_arg15)) shapeCasts_S128_S1x128 i) := by
  show StableHlo.after hostOps3 (W6 m ρ c) (Proc.devRef .tc main_v37) = _
  after_results
  rw [at6_arg15 m ρ c]
  rfl

/-- After region 3 its output array holds the updated hyperedge features. -/
theorem edgeOut (c : Dev nD) : W8 m ρ c (Proc.devRef .tc main_v38)
    = bnSig (m ((c : Thread nD τ).loc main_arg1)) (aggE (linSig (m ((c : Thread nD τ).loc main_arg0)) (m ((c : Thread nD τ).loc main_arg4)) (m ((c : Thread nD τ).loc main_arg5))) (m ((c : Thread nD τ).loc main_arg2)) (m ((c : Thread nD τ).loc main_arg3)))
        (m ((c : Thread nD τ).loc main_arg12)) (m ((c : Thread nD τ).loc main_arg13)) (m ((c : Thread nD τ).loc main_arg14)) (m ((c : Thread nD τ).loc main_arg15)) :=
  (W8_arr m ρ c 6).trans (Region3.value (V7 m ρ) c _ _ _ _ _ _ (at7_arg1 m ρ c) ((at7_v12 m ρ c).trans (at3_v12 m ρ c))
    (fun j => (congrFun (at7_v34 m ρ c) (ix2 (0 : Fin 1) j)).trans (row_at _ j))
    (fun j => (congrFun (at7_v35 m ρ c) (ix2 (0 : Fin 1) j)).trans (row_at _ j))
    (fun j => (congrFun (at7_v36 m ρ c) (ix2 (0 : Fin 1) j)).trans (row_at _ j))
    (fun j => (congrFun (at7_v37 m ρ c) (ix2 (0 : Fin 1) j)).trans (row_at _ j)))

end Cert.KernelIdeal.Fold

end
-- ==== Proof.RefNode.lean ====
import proofs.«159726_j19327352832462_1_alg».proof.Proof.Gen.ReferenceIdeal.Read
import proofs.«159726_j19327352832462_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.LayerSpec

/-- The reference's node messages — the host contraction against the transposed weight, the bias broadcast along rows,
    and the logistic spelt as 1 / (1 + e^(−z)) — are `linSig` of the three arguments, index by index. -/
theorem nodeMsg_eq (x0 : (⟨S100000x128, .f32⟩ : BufTy).Contents (Elt Ideal)) (x4 : (⟨S128x128, .f32⟩ : BufTy).Contents (Elt Ideal)) (x5 : (⟨S128, .f32⟩ : BufTy).Contents (Elt Ideal)) :
    val_main_v10 (F := Ideal) x0 x4 x5 = linSig x0 x4 x5 := by
  funext i
  obtain ⟨r, j, rfl⟩ : ∃ (r : Fin 100000) (j : Fin 128), i = ix2 r j := ⟨i 0, i 1, eq_ix2 i⟩
  rw [val_main_v10_apply, val_main_v9_apply, val_main_cst_0_apply, val_main_v8_apply, val_main_v7_apply,
    val_main_cst_apply, val_main_v6_apply, val_main_v5_apply, val_main_v4_apply, val_main_v1_apply,
    val_main_v3_apply, val_main_v2_apply]
  simp only [val_main_v0_apply]
  -- the contraction reads x at (r, k) and the transposed weight at (k, j), that is w at (j, k);
  -- the bias, broadcast along rows, is read at j
  have el : ∀ k : Fin 128, lidx_main_v1 (ix2 r j) k = ix2 r k := fun k =>
    funext fun a => Fin.ext (by match a with | ⟨0, _⟩ => rfl | ⟨1, _⟩ => rfl)
  have er : ∀ k : Fin 128, idx_main_v0 (ridx_main_v1 (ix2 r j) k) = ix2 j k := fun k =>
    funext fun a => Fin.ext (by match a with | ⟨0, _⟩ => rfl | ⟨1, _⟩ => rfl)
  have eb : idx_main_v2 (idx_main_v3 (ix2 r j)) = ix1 j :=
    funext fun a => Fin.ext (by match a with | ⟨0, _⟩ => rfl)
  -- the single-precision word of the constant is the extended real 1
  have h1 : Ideal.ofBits .f32 0x3F800000#32 = 1 := IdealRules.sign_bit.ideal_onePat .f32
  simp only [el, er, eb, Ideal.hostDivf_def, Ideal.hostUnary_exp_def, Ideal.hostNegf_def, Ideal.negf_def,
    Ideal.addf_def, Ideal.ofBits_def, h1]
  -- both sides are now 1 / (1 + e^(−(Σ_k x[r,k]·w[j,k] + b[j])))
  rfl

end Cert.ReferenceIdeal.RefValue

end
-- ==== Proof.RefEdge.lean ====
import proofs.«159726_j19327352832462_1_alg».proof.Proof.Gen.ReferenceIdeal.Read
import proofs.«159726_j19327352832462_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import Mathlib.Algebra.BigOperators.Fin

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.LayerSpec

/-- A sum over the 256 columns is the sum over the left half plus the sum over the right half: addition in a
    commutative monoid is associative and commutative, so no finiteness is asked of the terms. -/
theorem sum_halves {M : Type} [AddCommMonoid M] (f : Fin 256 → M) :
    ∑ k : Fin 256, f k = (∑ k : Fin 128, f (lo k)) + (∑ k : Fin 128, f (hi k)) :=
  Fin.sum_univ_add (a := 128) (b := 128) f

/-- Entry (r, k) of the joined row, k in the left half, is entry (r, k) of the first piece. -/
theorem cat_lo (x a : S20000x128.Idx → EReal) (r : Fin 20000) (k : Fin 128) :
    concatenate S20000x256 1 [⟨S20000x128, x⟩, ⟨S20000x128, a⟩] concatenates_S20000x128_S20000x128_S20000x256_d1
        (ix2 r (lo k)) = x (ix2 r k) :=
  concatenate_pair_apply_left 1 x a _ (ix2 r (lo k)) rfl (ix2 r k)
    (fun b => match b with | ⟨0, _⟩ => rfl | ⟨1, _⟩ => rfl)

/-- Entry (r, 128 + k) of the joined row is entry (r, k) of the second piece. -/
theorem cat_hi (x a : S20000x128.Idx → EReal) (r : Fin 20000) (k : Fin 128) :
    concatenate S20000x256 1 [⟨S20000x128, x⟩, ⟨S20000x128, a⟩] concatenates_S20000x128_S20000x128_S20000x256_d1
        (ix2 r (hi k)) = a (ix2 r k) :=
  concatenate_pair_apply_right 1 x a _ (ix2 r (hi k)) rfl rfl (ix2 r k)
    (fun b => match b with | ⟨0, _⟩ => fun _ => rfl | ⟨1, _⟩ => fun h => absurd rfl h)
    (by show k.val + 128 = 128 + k.val; omega)

/-- The reference's hyperedge messages: the 256-term contraction of the concatenated row [x₁[r,:], agg[r,:]] against the
    transposed 128×256 weight splits into the two 128-term contractions, so they are `dualLinSig` of the hyperedge
    features, the aggregate of the node messages, the weight and the bias. -/
theorem edgeMsg_eq (x0 : (⟨S100000x128, .f32⟩ : BufTy).Contents (Elt Ideal)) (x1 : (⟨S20000x128, .f32⟩ : BufTy).Contents (Elt Ideal)) (x2 x3 : (⟨S2000000, .i32⟩ : BufTy).Contents (Elt Ideal))
    (x4 : (⟨S128x128, .f32⟩ : BufTy).Contents (Elt Ideal)) (x5 : (⟨S128, .f32⟩ : BufTy).Contents (Elt Ideal)) (x6 : (⟨S128x256, .f32⟩ : BufTy).Contents (Elt Ideal)) (x7 : (⟨S128, .f32⟩ : BufTy).Contents (Elt Ideal)) :
    val_main_v32 (F := Ideal) x0 x1 x2 x3 x4 x5 x6 x7
      = dualLinSig x1 (val_main_v20 (F := Ideal) x0 x2 x3 x4 x5) x6 x7 := by
  funext i
  obtain ⟨r, j, rfl⟩ : ∃ (r : Fin 20000) (j : Fin 128), i = ix2 r j := ⟨i 0, i 1, eq_ix2 i⟩
  -- the composed index functions of the stages, as coordinates
  have eL : ∀ k : Fin 256, lidx_main_v23 (ix2 r j) k = ix2 r k := fun k =>
    funext fun a => Fin.ext (by match a with | ⟨0, _⟩ => rfl | ⟨1, _⟩ => rfl)
  have eR : ∀ k : Fin 256, idx_main_v22 (ridx_main_v23 (ix2 r j) k) = ix2 j k := fun k =>
    funext fun a => Fin.ext (by match a with | ⟨0, _⟩ => rfl | ⟨1, _⟩ => rfl)
  have eB : idx_main_v24 (idx_main_v25 (ix2 r j)) = ix1 j :=
    funext fun a => Fin.ext (by match a with | ⟨0, _⟩ => rfl)
  rw [val_main_v32_apply, val_main_v31_apply, val_main_cst_4_apply, val_main_v30_apply, val_main_v29_apply,
    val_main_cst_3_apply, val_main_v28_apply, val_main_v27_apply, val_main_v26_apply, val_main_v25_apply,
    val_main_v24_apply, val_main_v23_apply]
  unfold val_main_v21
  generalize val_main_v20 (F := Ideal) x0 x2 x3 x4 x5 = a
  simp only [val_main_v22_apply, eL, eR, eB]
  rw [sum_halves]
  simp only [cat_lo, cat_hi, Ideal.hostDivf_def, Ideal.hostUnary_exp_def, Ideal.hostNegf_def, Ideal.negf_def,
    Ideal.addf_def, Ideal.ofBits_def, Ideal.ofBits_one_f32]
  rfl

end Cert.ReferenceIdeal.RefValue

end
-- ==== Proof.RefUpdate.lean ====
import proofs.«159726_j19327352832462_1_alg».proof.Proof.Gen.ReferenceIdeal.Read
import proofs.«159726_j19327352832462_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.LayerSpec

/-- The reference's updated node features are `bnSig` of the node features, the aggregate of the hyperedge messages and
    the four normalisation vectors. -/
theorem nodeOut_eq (x0 : (⟨S100000x128, .f32⟩ : BufTy).Contents (Elt Ideal)) (x1 : (⟨S20000x128, .f32⟩ : BufTy).Contents (Elt Ideal)) (x2 x3 : (⟨S2000000, .i32⟩ : BufTy).Contents (Elt Ideal))
    (x4 : (⟨S128x128, .f32⟩ : BufTy).Contents (Elt Ideal)) (x5 : (⟨S128, .f32⟩ : BufTy).Contents (Elt Ideal)) (x6 : (⟨S128x256, .f32⟩ : BufTy).Contents (Elt Ideal)) (x7 x8 x9 x10 x11 : (⟨S128, .f32⟩ : BufTy).Contents (Elt Ideal)) :
    val_main_v62 (F := Ideal) x0 x1 x2 x3 x4 x5 x6 x7 x8 x9 x10 x11
      = bnSig x0 (val_main_v42 (F := Ideal) x0 x1 x2 x3 x4 x5 x6 x7) x8 x9 x10 x11 := by
  funext i
  obtain ⟨r, j, rfl⟩ : ∃ (r : Fin 100000) (j : Fin 128), i = ix2 r j := ⟨i 0, i 1, eq_ix2 i⟩
  rw [val_main_v62_apply, val_main_v61_apply, val_main_cst_10_apply, val_main_v60_apply, val_main_v59_apply,
    val_main_cst_9_apply, val_main_v58_apply, val_main_v57_apply, val_main_v56_apply]
  -- the aggregate enters only through its entry at (r, j)
  generalize val_main_v42 (F := Ideal) x0 x1 x2 x3 x4 x5 x6 x7 = a
  rw [val_main_v55_apply, val_main_v52_apply, val_main_v45_apply, val_main_v44_apply, val_main_v43_apply,
    val_main_v51_apply, val_main_v50_apply, val_main_v49_apply, val_main_v48_apply, val_main_v47_apply,
    val_main_v46_apply, val_main_cst_8_apply, val_main_v54_apply, val_main_v53_apply]
  -- a vector broadcast along rows is read at the column j
  have eμ : idx_main_v43 (idx_main_v44 (ix2 r j)) = ix1 j :=
    funext fun d => Fin.ext (by match d with | ⟨0, _⟩ => rfl)
  have eγ : idx_main_v50 (idx_main_v51 (ix2 r j)) = ix1 j :=
    funext fun d => Fin.ext (by match d with | ⟨0, _⟩ => rfl)
  have eβ : idx_main_v53 (idx_main_v54 (ix2 r j)) = ix1 j :=
    funext fun d => Fin.ext (by match d with | ⟨0, _⟩ => rfl)
  -- the single-precision word of the constant is the extended real 1
  have h1 : Ideal.ofBits .f32 0x3F800000#32 = 1 := IdealRules.sign_bit.ideal_onePat .f32
  simp only [eμ, eγ, eβ, Ideal.hostDivf_def, Ideal.hostUnary_exp_def, Ideal.hostUnary_rsqrt_def, Ideal.hostNegf_def,
    Ideal.negf_def, Ideal.addf_def, Ideal.subf_def, Ideal.mulf_def, Ideal.ofBits_def, h1]
  -- both sides are now 1 / (1 + e^(−z)) with z = ((x[r,j] − μ[j])·(γ[j]·(v[j] + ε)^(−1/2)) + β[j]) + a[r,j]
  rfl

/-- The reference's updated hyperedge features are `bnSig` of the hyperedge features, the aggregate of the node messages
    and the four normalisation vectors. -/
theorem edgeOut_eq (x0 : (⟨S100000x128, .f32⟩ : BufTy).Contents (Elt Ideal)) (x1 : (⟨S20000x128, .f32⟩ : BufTy).Contents (Elt Ideal)) (x2 x3 : (⟨S2000000, .i32⟩ : BufTy).Contents (Elt Ideal))
    (x4 : (⟨S128x128, .f32⟩ : BufTy).Contents (Elt Ideal)) (x5 x12 x13 x14 x15 : (⟨S128, .f32⟩ : BufTy).Contents (Elt Ideal)) :
    val_main_v82 (F := Ideal) x0 x1 x2 x3 x4 x5 x12 x13 x14 x15
      = bnSig x1 (val_main_v20 (F := Ideal) x0 x2 x3 x4 x5) x12 x13 x14 x15 := by
  funext i
  obtain ⟨r, j, rfl⟩ : ∃ (r : Fin 20000) (j : Fin 128), i = ix2 r j := ⟨i 0, i 1, eq_ix2 i⟩
  rw [val_main_v82_apply, val_main_v81_apply, val_main_cst_13_apply, val_main_v80_apply, val_main_v79_apply,
    val_main_cst_12_apply, val_main_v78_apply, val_main_v77_apply, val_main_v76_apply]
  -- the aggregate enters only through its entry at (r, j)
  generalize val_main_v20 (F := Ideal) x0 x2 x3 x4 x5 = a
  rw [val_main_v75_apply, val_main_v72_apply, val_main_v65_apply, val_main_v64_apply, val_main_v63_apply,
    val_main_v71_apply, val_main_v70_apply, val_main_v69_apply, val_main_v68_apply, val_main_v67_apply,
    val_main_v66_apply, val_main_cst_11_apply, val_main_v74_apply, val_main_v73_apply]
  -- a vector broadcast along rows is read at the column j
  have eμ : idx_main_v63 (idx_main_v64 (ix2 r j)) = ix1 j :=
    funext fun d => Fin.ext (by match d with | ⟨0, _⟩ => rfl)
  have eγ : idx_main_v70 (idx_main_v71 (ix2 r j)) = ix1 j :=
    funext fun d => Fin.ext (by match d with | ⟨0, _⟩ => rfl)
  have eβ : idx_main_v73 (idx_main_v74 (ix2 r j)) = ix1 j :=
    funext fun d => Fin.ext (by match d with | ⟨0, _⟩ => rfl)
  -- the single-precision word of the constant is the extended real 1
  have h1 : Ideal.ofBits .f32 0x3F800000#32 = 1 := IdealRules.sign_bit.ideal_onePat .f32
  simp only [eμ, eγ, eβ, Ideal.hostDivf_def, Ideal.hostUnary_exp_def, Ideal.hostUnary_rsqrt_def, Ideal.hostNegf_def,
    Ideal.negf_def, Ideal.addf_def, Ideal.subf_def, Ideal.mulf_def, Ideal.ofBits_def, h1]
  -- both sides are now 1 / (1 + e^(−z)) with z = ((x[r,j] − μ[j])·(γ[j]·(v[j] + ε)^(−1/2)) + β[j]) + a[r,j]
  rfl

end Cert.ReferenceIdeal.RefValue

end
-- ==== Proof.Bridge.lean ====
/-
  The reference's two results as the same compositions the kernel's fold reaches. The reference gathers and scatter-adds
  exactly as the kernel's host stretches do — the same operations in the same order on the same index arrays —, so its
  two aggregates are the functions `aggE` and `aggN` of the array they read; with the three value lemmas of the
  reference's dense stages its results are the specification's functions composed through them.
-/
import proofs.«159726_j19327352832462_1_alg».proof.Proof.KHost
import proofs.«159726_j19327352832462_1_alg».proof.Proof.RefNode
import proofs.«159726_j19327352832462_1_alg».proof.Proof.RefEdge
import proofs.«159726_j19327352832462_1_alg».proof.Proof.RefUpdate

noncomputable section

namespace Cert.Bridge

open Idealize.ShloMosaic Idealize.ShloMosaic.TcCoe
open Cert.ReferenceIdeal.Read Cert.ReferenceIdeal.RefValue Cert.KernelIdeal.Fold Cert.LayerSpec

/-- The reference's aggregate over hyperedges is `aggE` of its node messages: the same gather and scatter-add. -/
theorem aggE_ref (x0 : (⟨Cert.ReferenceIdeal.S100000x128, .f32⟩ : BufTy).Contents (Elt Ideal)) (x2 x3 : (⟨Cert.ReferenceIdeal.S2000000, .i32⟩ : BufTy).Contents (Elt Ideal))
    (x4 : (⟨Cert.ReferenceIdeal.S128x128, .f32⟩ : BufTy).Contents (Elt Ideal)) (x5 : (⟨Cert.ReferenceIdeal.S128, .f32⟩ : BufTy).Contents (Elt Ideal)) :
    val_main_v20 (F := Ideal) x0 x2 x3 x4 x5 = aggE (val_main_v10 (F := Ideal) x0 x4 x5) x2 x3 := rfl

/-- The reference's aggregate over nodes is `aggN` of its hyperedge messages. -/
theorem aggN_ref (x0 : (⟨Cert.ReferenceIdeal.S100000x128, .f32⟩ : BufTy).Contents (Elt Ideal)) (x1 : (⟨Cert.ReferenceIdeal.S20000x128, .f32⟩ : BufTy).Contents (Elt Ideal)) (x2 x3 : (⟨Cert.ReferenceIdeal.S2000000, .i32⟩ : BufTy).Contents (Elt Ideal))
    (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x256, .f32⟩ : BufTy).Contents (Elt Ideal)) (x7 : (⟨Cert.ReferenceIdeal.S128, .f32⟩ : BufTy).Contents (Elt Ideal)) :
    val_main_v42 (F := Ideal) x0 x1 x2 x3 x4 x5 x6 x7 = aggN (val_main_v32 (F := Ideal) x0 x1 x2 x3 x4 x5 x6 x7) x2 x3 := rfl

/-- The reference's updated node features, composed from the arguments. -/
theorem ref_nodeOut (x0 : (⟨Cert.ReferenceIdeal.S100000x128, .f32⟩ : BufTy).Contents (Elt Ideal)) (x1 : (⟨Cert.ReferenceIdeal.S20000x128, .f32⟩ : BufTy).Contents (Elt Ideal)) (x2 x3 : (⟨Cert.ReferenceIdeal.S2000000, .i32⟩ : BufTy).Contents (Elt Ideal))
    (x4 : (⟨Cert.ReferenceIdeal.S128x128, .f32⟩ : BufTy).Contents (Elt Ideal)) (x5 : (⟨Cert.ReferenceIdeal.S128, .f32⟩ : BufTy).Contents (Elt Ideal)) (x6 : (⟨Cert.ReferenceIdeal.S128x256, .f32⟩ : BufTy).Contents (Elt Ideal)) (x7 x8 x9 x10 x11 : (⟨Cert.ReferenceIdeal.S128, .f32⟩ : BufTy).Contents (Elt Ideal)) :
    val_main_v62 (F := Ideal) x0 x1 x2 x3 x4 x5 x6 x7 x8 x9 x10 x11
      = bnSig x0 (aggN (dualLinSig x1 (aggE (linSig x0 x4 x5) x2 x3) x6 x7) x2 x3) x8 x9 x10 x11 := by
  rw [nodeOut_eq, aggN_ref, edgeMsg_eq, aggE_ref, nodeMsg_eq]

/-- The reference's updated hyperedge features, composed from the arguments. -/
theorem ref_edgeOut (x0 : (⟨Cert.ReferenceIdeal.S100000x128, .f32⟩ : BufTy).Contents (Elt Ideal)) (x1 : (⟨Cert.ReferenceIdeal.S20000x128, .f32⟩ : BufTy).Contents (Elt Ideal)) (x2 x3 : (⟨Cert.ReferenceIdeal.S2000000, .i32⟩ : BufTy).Contents (Elt Ideal))
    (x4 : (⟨Cert.ReferenceIdeal.S128x128, .f32⟩ : BufTy).Contents (Elt Ideal)) (x5 x12 x13 x14 x15 : (⟨Cert.ReferenceIdeal.S128, .f32⟩ : BufTy).Contents (Elt Ideal)) :
    val_main_v82 (F := Ideal) x0 x1 x2 x3 x4 x5 x12 x13 x14 x15
      = bnSig x1 (aggE (linSig x0 x4 x5) x2 x3) x12 x13 x14 x15 := by
  rw [edgeOut_eq, aggE_ref, nodeMsg_eq]

end Cert.Bridge

end
-- ==== Proof.lean ====
/-
  One hypergraph message-passing layer (nodes → hyperedges → nodes, then a normalised residual update of both), certified
  equal to its reference over the extended reals.
  The kernel program runs four regions among host stretches. Region 0 computes the node messages σ(x₀·W_nhᵀ + b_nh) in row
  blocks of 5000; the host gathers their rows by node index and adds them up by hyperedge index; region 1 computes the
  hyperedge messages σ(x₁·W₁ᵀ + agg·W₂ᵀ + b_en) with W₁, W₂ the two halves of W_en; the host gathers those by hyperedge index
  and adds them up by node index; regions 2 and 3 apply σ to the normalised features plus the aggregates. The reference
  computes the same on the host, with the hyperedge messages as ONE contraction of the concatenated row [x₁, agg] against
  W_enᵀ. The two agree because a 256-term sum is the sum of its two 128-term halves (addition on the extended reals is
  commutative and associative: no finiteness is needed), the logistic is 1 / (1 + e^(−z)) on both sides, the inverse square
  root is one function on both sides, and the gather / scatter-add stretches are the same operations on the same indices.
  What each region leaves is read off its frame run (Proof/R0 … R3), carried through the host stretches (Proof/KKeep,
  Proof/KHost) over the launch with the result arrays named (Proof/KRun); the reference's stages are read index by index
  (Proof/RefNode, RefEdge, RefUpdate) and joined to the kernel's compositions in Proof/Bridge.
-/
import proofs.«159726_j19327352832462_1_alg».proof.Defs
import proofs.«159726_j19327352832462_1_alg».proof.Proof.Gen.Kernel
import proofs.«159726_j19327352832462_1_alg».proof.Proof.Gen.Kernel.Frame
import proofs.«159726_j19327352832462_1_alg».proof.Proof.Gen.KernelIdeal
import proofs.«159726_j19327352832462_1_alg».proof.Proof.Gen.KernelIdeal.Frame
import proofs.«159726_j19327352832462_1_alg».proof.Proof.Gen.ReferenceIdeal
import proofs.«159726_j19327352832462_1_alg».proof.Proof.Gen.ReferenceIdeal.Run
import proofs.«159726_j19327352832462_1_alg».proof.Proof.Gen.ReferenceIdeal.Read
import proofs.«159726_j19327352832462_1_alg».proof.Proof.Gen.Pre_finite_inputs
import proofs.«159726_j19327352832462_1_alg».proof.Proof.KRun
import proofs.«159726_j19327352832462_1_alg».proof.Proof.KHost
import proofs.«159726_j19327352832462_1_alg».proof.Proof.Bridge
import Idealize.ShloMosaic.Adequacy
import Idealize.ShloMosaic.Init

noncomputable section

namespace Cert.Proof

open Idealize.ShloMosaic Idealize.ShloMosaic.TcCoe Idealize.SL.Sem
open Cert.KernelIdeal.Fold Cert.LayerSpec

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs end with the updated node features at `bnSig x₀ (aggN (dualLinSig x₁ (aggE (linSig x₀ W_nh b_nh)) W_en b_en)) …`
    and the updated hyperedge features at `bnSig x₁ (aggE (linSig x₀ W_nh b_nh)) …` of arguments that agree. -/
theorem algebraic : Cert.algebraic_KernelIdeal_ReferenceIdeal := by
  intro m ρ m' ρ' _ hagree
  refine ⟨fun c => bnSig (m ((c.tc : Thread Cert.KernelIdeal.nD Cert.KernelIdeal.τ).loc Cert.KernelIdeal.main_arg0))
      (aggN (dualLinSig (m ((c.tc : Thread Cert.KernelIdeal.nD Cert.KernelIdeal.τ).loc Cert.KernelIdeal.main_arg1)) (aggE (linSig (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
        (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => bnSig (m ((c.tc : Thread Cert.KernelIdeal.nD Cert.KernelIdeal.τ).loc Cert.KernelIdeal.main_arg1))
      (aggE (linSig (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
      (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono
      (fun r h c => ⟨(h c).1.trans (nodeOut m ρ c), (h c).2.1.trans (edgeOut m ρ c), (h c).2.2⟩)
      (Cert.KernelIdeal.Gen.run_results (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4, h5, h6, h7, h8, h9, h10, h11, h12, h13, h14, h15⟩ := hagree c
      refine (Cert.ReferenceIdeal.Read.val_main_v62_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))).trans ?_
      refine (Cert.Bridge.ref_nodeOut (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))).trans ?_
      rw [h0, h1, h2, h3, h4, h5, h6, h7, h8, h9, h10, h11]
    · obtain ⟨h0, h1, h2, h3, h4, h5, h6, h7, h8, h9, h10, h11, h12, h13, h14, h15⟩ := hagree c
      refine (Cert.ReferenceIdeal.Read.val_main_v82_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))).trans ?_
      refine (Cert.Bridge.ref_edgeOut (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))).trans ?_
      rw [h0, h1, h2, h3, h4, h5, h12, h13, h14, h15]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
